-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x16 : Shape := ⟨2, ![65536, 16]⟩
abbrev S16 : Shape := ⟨1, ![16]⟩
abbrev S16x128 : Shape := ⟨2, ![16, 128]⟩
abbrev S16x65x128 : Shape := ⟨3, ![16, 65, 128]⟩
abbrev S_ : Shape := ⟨0, ![]⟩

class Facts : Prop where
  bcast_S_S65536x16 : S_.BroadcastsInDim S65536x16 (![] : Fin 0 → Fin S65536x16.rank)
  reducesTo_S65536x16_S_d0_1 : S65536x16.ReducesTo [0, 1] S_
  h_S_ : 0 < S_.numel
  bcast_S_S16 : S_.BroadcastsInDim S16 (![] : Fin 0 → Fin S16.rank)
  reducesTo_S16_S_d0 : S16.ReducesTo [0] S_
  bcast_S_S16x128 : S_.BroadcastsInDim S16x128 (![] : Fin 0 → Fin S16x128.rank)
  reducesTo_S16x128_S_d0_1 : S16x128.ReducesTo [0, 1] S_
  bcast_S_S16x65x128 : S_.BroadcastsInDim S16x65x128 (![] : Fin 0 → Fin S16x65x128.rank)
  reducesTo_S16x65x128_S_d0_1_2 : S16x65x128.ReducesTo [0, 1, 2] S_

variable [Facts]

def fn_part2 {F : FTy → Type} [FloatOps F] (main_v28 : IVec S_ 1) (main_v33 : IVec S65536x16 1) : IVec S_ 1 :=
  let main_c_12 : IVec S_ 1 := constantI S_ 1 1#1
  let main_v34 : IVec S_ 1 := (fun x v => Host.reduce IntOp.andi x v reducesTo_S65536x16_S_d0_1 h_S_) main_v33 main_c_12
  let main_v35 : IVec S_ 1 := andi main_v28 main_v34
  main_v35

def fn_part1 {F : FTy → Type} [FloatOps F] (main_arg4 : FVec F S16x128 .f32) (main_arg5 : FVec F S16x65x128 .f32) (main_arg6 : IVec S65536x16 32) (main_v13 : IVec S_ 1) (main_v16 : IVec S16x128 1) : IVec S_ 1 :=
  let main_c_5 : IVec S_ 1 := constantI S_ 1 1#1
  let main_v17 : IVec S_ 1 := (fun x v => Host.reduce IntOp.andi x v reducesTo_S16x128_S_d0_1 h_S_) main_v16 main_c_5
  let main_v18 : IVec S_ 1 := andi main_v13 main_v17
  let main_v19 : FVec F S16x128 .f32 := Host.absf main_arg4
  let main_cst_6 : FVec F S_ .f32 := constant S_ .f32 0x7F800000#32
  let main_v20 : FVec F S16x128 .f32 := broadcastInDim S16x128 ![] bcast_S_S16x128 main_cst_6
  let main_v21 : IVec S16x128 1 := cmpf .olt main_v19 main_v20
  let main_c_7 : IVec S_ 1 := constantI S_ 1 1#1
  let main_v22 : IVec S_ 1 := (fun x v => Host.reduce IntOp.andi x v reducesTo_S16x128_S_d0_1 h_S_) main_v21 main_c_7
  let main_v23 : IVec S_ 1 := andi main_v18 main_v22
  let main_v24 : FVec F S16x65x128 .f32 := Host.absf main_arg5
  let main_cst_8 : FVec F S_ .f32 := constant S_ .f32 0x7F800000#32
  let main_v25 : FVec F S16x65x128 .f32 := broadcastInDim S16x65x128 ![] bcast_S_S16x65x128 main_cst_8
  let main_v26 : IVec S16x65x128 1 := cmpf .olt main_v24 main_v25
  let main_c_9 : IVec S_ 1 := constantI S_ 1 1#1
  let main_v27 : IVec S_ 1 := (fun x v => Host.reduce IntOp.andi x v reducesTo_S16x65x128_S_d0_1_2 h_S_) main_v26 main_c_9
  let main_v28 : IVec S_ 1 := andi main_v23 main_v27
  let main_c_10 : IVec S_ 32 := constantI S_ 32 0#32
  let main_v29 : IVec S65536x16 32 := broadcastInDim S65536x16 ![] bcast_S_S65536x16 main_c_10
  let main_v30 : IVec S65536x16 1 := cmpi .sge main_arg6 main_v29
  let main_c_11 : IVec S_ 32 := constantI S_ 32 65#32
  let main_v31 : IVec S65536x16 32 := broadcastInDim S65536x16 ![] bcast_S_S65536x16 main_c_11
  let main_v32 : IVec S65536x16 1 := cmpi .slt main_arg6 main_v31
  let main_v33 : IVec S65536x16 1 := andi main_v30 main_v32
  fn_part2 (F := F) main_v28 main_v33

def fn {F : FTy → Type} [FloatOps F] (main_arg0 : FVec F S65536x16 .f32) (main_arg1 : FVec F S16 .f32) (main_arg2 : FVec F S16 .f32) (main_arg3 : FVec F S16x128 .f32) (main_arg4 : FVec F S16x128 .f32) (main_arg5 : FVec F S16x65x128 .f32) (main_arg6 : IVec S65536x16 32) : IVec S_ 1 :=
  let main_v0 : FVec F S65536x16 .f32 := Host.absf main_arg0
  let main_cst : FVec F S_ .f32 := constant S_ .f32 0x7F800000#32
  let main_v1 : FVec F S65536x16 .f32 := broadcastInDim S65536x16 ![] bcast_S_S65536x16 main_cst
  let main_v2 : IVec S65536x16 1 := cmpf .olt main_v0 main_v1
  let main_c : IVec S_ 1 := constantI S_ 1 1#1
  let main_v3 : IVec S_ 1 := (fun x v => Host.reduce IntOp.andi x v reducesTo_S65536x16_S_d0_1 h_S_) main_v2 main_c
  let main_v4 : FVec F S16 .f32 := Host.absf main_arg1
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  let main_c_1 : IVec S_ 1 := constantI S_ 1 1#1
  let main_v7 : IVec S_ 1 := (fun x v => Host.reduce IntOp.andi x v reducesTo_S16_S_d0 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x128 .f32 := Host.absf main_arg3
  let main_cst_4 : FVec F S_ .f32 := constant S_ .f32 0x7F800000#32
  let main_v15 : FVec F S16x128 .f32 := broadcastInDim S16x128 ![] bcast_S_S16x128 main_cst_4
  let main_v16 : IVec S16x128 1 := cmpf .olt main_v14 main_v15
  fn_part1 (F := F) main_arg4 main_arg5 main_arg6 main_v13 main_v16
-- ==== Kernel.lean ====
abbrev S65536x16 : Shape := ⟨2, ![65536, 16]⟩
abbrev S16 : Shape := ⟨1, ![16]⟩
abbrev S16x128 : Shape := ⟨2, ![16, 128]⟩
abbrev S16x65x128 : Shape := ⟨3, ![16, 65, 128]⟩
abbrev S_ : Shape := ⟨0, ![]⟩
abbrev S16x128x128 : Shape := ⟨3, ![16, 128, 128]⟩
abbrev S8x256x128 : Shape := ⟨3, ![8, 256, 128]⟩
abbrev S1x16 : Shape := ⟨2, ![1, 16]⟩
abbrev S128 : Shape := ⟨1, ![128]⟩
abbrev S1x128 : Shape := ⟨2, ![1, 128]⟩
abbrev S65536x128 : Shape := ⟨2, ![65536, 128]⟩
abbrev S4096x16 : Shape := ⟨2, ![4096, 16]⟩
abbrev S4096x128 : Shape := ⟨2, ![4096, 128]⟩
abbrev S1x256 : Shape := ⟨2, ![1, 256]⟩
abbrev S4096x1 : Shape := ⟨2, ![4096, 1]⟩
abbrev S4096x256 : Shape := ⟨2, ![4096, 256]⟩
abbrev S1x256x128 : Shape := ⟨3, ![1, 256, 128]⟩
abbrev S256x128 : Shape := ⟨2, ![256, 128]⟩

abbrev nBuf : Space → Nat
  | .hbm => 19
  | .vmem => 11
  | .smem => 0
  | _ => 0

abbrev bufTy : (tb : Table) → Fin (tcTables nBuf tb) → BufTy
  | .hbm, ⟨0, _⟩ => ⟨S65536x16, .f32⟩
  | .hbm, ⟨1, _⟩ => ⟨S16, .f32⟩
  | .hbm, ⟨2, _⟩ => ⟨S16, .f32⟩
  | .hbm, ⟨3, _⟩ => ⟨S16x128, .f32⟩
  | .hbm, ⟨4, _⟩ => ⟨S16x128, .f32⟩
  | .hbm, ⟨5, _⟩ => ⟨S16x65x128, .f32⟩
  | .hbm, ⟨6, _⟩ => ⟨S65536x16, .i32⟩
  | .hbm, ⟨7, _⟩ => ⟨S_, .i32⟩
  | .hbm, ⟨8, _⟩ => ⟨S_, .f32⟩
  | .hbm, ⟨9, _⟩ => ⟨S16x128x128, .f32⟩
  | .hbm, ⟨10, _⟩ => ⟨S8x256x128, .f32⟩
  | .hbm, ⟨11, _⟩ => ⟨S8x256x128, .bf16⟩
  | .hbm, ⟨12, _⟩ => ⟨S16x128, .bf16⟩
  | .hbm, ⟨13, _⟩ => ⟨S1x16, .f32⟩
  | .hbm, ⟨14, _⟩ => ⟨S1x16, .f32⟩
  | .hbm, ⟨15, _⟩ => ⟨S_, .f32⟩
  | .hbm, ⟨16, _⟩ => ⟨S128, .f32⟩
  | .hbm, ⟨17, _⟩ => ⟨S1x128, .f32⟩
  | .hbm, ⟨18, _⟩ => ⟨S65536x128, .f32⟩
  | .local _ .vmem, ⟨0, _⟩ => ⟨S4096x16, .f32⟩
  | .local _ .vmem, ⟨1, _⟩ => ⟨S4096x16, .f32⟩
  | .local _ .vmem, ⟨2, _⟩ => ⟨S4096x16, .i32⟩
  | .local _ .vmem, ⟨3, _⟩ => ⟨S4096x16, .i32⟩
  | .local _ .vmem, ⟨4, _⟩ => ⟨S1x16, .f32⟩
  | .local _ .vmem, ⟨5, _⟩ => ⟨S1x16, .f32⟩
  | .local _ .vmem, ⟨6, _⟩ => ⟨S16x128, .bf16⟩
  | .local _ .vmem, ⟨7, _⟩ => ⟨S1x128, .f32⟩
  | .local _ .vmem, ⟨8, _⟩ => ⟨S8x256x128, .bf16⟩
  | .local _ .vmem, ⟨9, _⟩ => ⟨S4096x128, .f32⟩
  | .local _ .vmem, ⟨10, _⟩ => ⟨S4096x128, .f32⟩
  | _, _ => ⟨S65536x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x16 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  pads_S16x65x128_S16x128x128_000_0630_000 : S16x65x128.Pads (![0, 0, 0] : Fin 3 → Nat) ![0, 63, 0] ![0, 0, 0] S16x128x128
  h_S_ : 0 < S_.numel
  shapeCasts_S16x128x128_S8x256x128 : S16x128x128.ShapeCasts S8x256x128
  bitsLt_bf16_f32 : FTy.bits .bf16 < FTy.bits .f32
  shapeCasts_S16_S1x16 : S16.ShapeCasts S1x16
  reducesTo_S16x128_S128_d0 : S16x128.ReducesTo [0] S128
  shapeCasts_S128_S1x128 : S128.ShapeCasts S1x128
  inb_S4096x16_S4096x16_0_0 : ∀ a, (![0, 0] : Fin 2 → Nat) a + S4096x16.size a ≤ S4096x16.size a
  h_S4096x16 : 0 < S4096x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4096x16 : S1x16.Broadcasts S4096x16
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S4096x128_S4096x128_0_0 : ∀ a, (![0, 0] : Fin 2 → Nat) a + S4096x128.size a ≤ S4096x128.size a
  h_S4096x128 : 0 < S4096x128.numel
  iota_S1x256_d1_w32 : S1x256.Iotas .tc 32 [1]
  slices_S4096x16_o0_0_S4096x1 : S4096x16.Slices ![0, 0] S4096x1
  slices_S4096x16_o0_1_S4096x1 : S4096x16.Slices ![0, 1] S4096x1
  broadcasts_S4096x1_S4096x256 : S4096x1.Broadcasts S4096x256
  broadcasts_S1x256_S4096x256 : S1x256.Broadcasts S4096x256
  natLt_1_32 : 1 < 32
  inb_S8x256x128_S1x256x128_0_0_0 : ∀ a, (![0, 0, 0] : Fin 3 → Nat) a + S1x256x128.size a ≤ S8x256x128.size a
  h_S1x256x128 : 0 < S1x256x128.numel
  shapeCasts_S1x256x128_S256x128 : S1x256x128.ShapeCasts S256x128
  shapeCasts_S4096x128_S4096x128 : S4096x128.ShapeCasts S4096x128
  slices_S4096x16_o0_2_S4096x1 : S4096x16.Slices ![0, 2] S4096x1
  slices_S4096x16_o0_3_S4096x1 : S4096x16.Slices ![0, 3] S4096x1
  inb_S8x256x128_S1x256x128_1_0_0 : ∀ a, (![1, 0, 0] : Fin 3 → Nat) a + S1x256x128.size a ≤ S8x256x128.size a
  slices_S4096x16_o0_4_S4096x1 : S4096x16.Slices ![0, 4] S4096x1
  slices_S4096x16_o0_5_S4096x1 : S4096x16.Slices ![0, 5] S4096x1
  inb_S8x256x128_S1x256x128_2_0_0 : ∀ a, (![2, 0, 0] : Fin 3 → Nat) a + S1x256x128.size a ≤ S8x256x128.size a
  slices_S4096x16_o0_6_S4096x1 : S4096x16.Slices ![0, 6] S4096x1
  slices_S4096x16_o0_7_S4096x1 : S4096x16.Slices ![0, 7] S4096x1
  inb_S8x256x128_S1x256x128_3_0_0 : ∀ a, (![3, 0, 0] : Fin 3 → Nat) a + S1x256x128.size a ≤ S8x256x128.size a
  slices_S4096x16_o0_8_S4096x1 : S4096x16.Slices ![0, 8] S4096x1
  slices_S4096x16_o0_9_S4096x1 : S4096x16.Slices ![0, 9] S4096x1
  inb_S8x256x128_S1x256x128_4_0_0 : ∀ a, (![4, 0, 0] : Fin 3 → Nat) a + S1x256x128.size a ≤ S8x256x128.size a
  slices_S4096x16_o0_10_S4096x1 : S4096x16.Slices ![0, 10] S4096x1
  slices_S4096x16_o0_11_S4096x1 : S4096x16.Slices ![0, 11] S4096x1
  inb_S8x256x128_S1x256x128_5_0_0 : ∀ a, (![5, 0, 0] : Fin 3 → Nat) a + S1x256x128.size a ≤ S8x256x128.size a
  slices_S4096x16_o0_12_S4096x1 : S4096x16.Slices ![0, 12] S4096x1
  slices_S4096x16_o0_13_S4096x1 : S4096x16.Slices ![0, 13] S4096x1
  inb_S8x256x128_S1x256x128_6_0_0 : ∀ a, (![6, 0, 0] : Fin 3 → Nat) a + S1x256x128.size a ≤ S8x256x128.size a
  slices_S4096x16_o0_14_S4096x1 : S4096x16.Slices ![0, 14] S4096x1
  slices_S4096x16_o0_15_S4096x1 : S4096x16.Slices ![0, 15] S4096x1
  inb_S8x256x128_S1x256x128_7_0_0 : ∀ a, (![7, 0, 0] : Fin 3 → Nat) a + S1x256x128.size a ≤ S8x256x128.size a
  dot_S4096x16_S16x128_S4096x128_1_0_0_1_n_n_wf : DotDims.WF S4096x16 S16x128 S4096x128 [1] [0] [0] [1] [] []
  dot_S4096x256_S256x128_S4096x128_1_0_0_1_n_n_wf : DotDims.WF S4096x256 S256x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x16.size a ≤ S65536x16.size a
  hwx0_0 : ∀ i : grid0.Coords, EltTy.bits .f32 = 32 ∨ (Rect.block (s := S65536x16) S4096x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x16.size a ≤ S65536x16.size a
  hwx0_1 : ∀ i : grid0.Coords, EltTy.bits .i32 = 32 ∨ (Rect.block (s := S65536x16) S4096x16.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x128.size a ≤ S16x128.size a
  hwx0_4 : ∀ i : grid0.Coords, EltTy.bits .bf16 = 32 ∨ (Rect.block (s := S16x128) S16x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x256x128.size a ≤ S8x256x128.size a
  hwx0_6 : ∀ i : grid0.Coords, EltTy.bits .bf16 = 32 ∨ (Rect.block (s := S8x256x128) S8x256x128.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x128.size a ≤ S65536x128.size a
  hwx0_7 : ∀ i : grid0.Coords, EltTy.bits .f32 = 32 ∨ (Rect.block (s := S65536x128) S4096x128.size (cc0_transform_7 i) (hinb0_7 i)).WholeWords (EltTy.packing .f32)

variable [Facts₀]

def dot_S4096x16_S16x128_S4096x128_1_0_0_1_n_n : DotDims S4096x16 S16x128 S4096x128 where
  lhsContracting := [1]
  rhsContracting := [0]
  lhsNonContracting := [0]
  rhsNonContracting := [1]
  lhsBatch := []
  rhsBatch := []
  wf := dot_S4096x16_S16x128_S4096x128_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

abbrev win0_0 : Pipeline.Window sig grid0 :=
  Pipeline.Window.ofSpec (Memref.whole main_arg0) S4096x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S4096x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S16x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S8x256x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S4096x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S65536x16 : Shape := ⟨2, ![65536, 16]⟩
abbrev S16 : Shape := ⟨1, ![16]⟩
abbrev S16x128 : Shape := ⟨2, ![16, 128]⟩
abbrev S16x65x128 : Shape := ⟨3, ![16, 65, 128]⟩
abbrev S1x16 : Shape := ⟨2, ![1, 16]⟩
abbrev S_ : Shape := ⟨0, ![]⟩
abbrev S65536x128 : Shape := ⟨2, ![65536, 128]⟩
abbrev S128 : Shape := ⟨1, ![128]⟩
abbrev S1x128 : Shape := ⟨2, ![1, 128]⟩
abbrev S65536x16x1 : Shape := ⟨3, ![65536, 16, 1]⟩
abbrev S65536x16x2 : Shape := ⟨3, ![65536, 16, 2]⟩
abbrev S65536x16x128 : Shape := ⟨3, ![65536, 16, 128]⟩

abbrev nBuf : Space → Nat
  | .hbm => 53
  | .vmem => 0
  | .smem => 0
  | _ => 0

abbrev bufTy : (tb : Table) → Fin (tcTables nBuf tb) → BufTy
  | .hbm, ⟨0, _⟩ => ⟨S65536x16, .f32⟩
  | .hbm, ⟨1, _⟩ => ⟨S16, .f32⟩
  | .hbm, ⟨2, _⟩ => ⟨S16, .f32⟩
  | .hbm, ⟨3, _⟩ => ⟨S16x128, .f32⟩
  | .hbm, ⟨4, _⟩ => ⟨S16x128, .f32⟩
  | .hbm, ⟨5, _⟩ => ⟨S16x65x128, .f32⟩
  | .hbm, ⟨6, _⟩ => ⟨S65536x16, .i32⟩
  | .hbm, ⟨7, _⟩ => ⟨S1x16, .f32⟩
  | .hbm, ⟨8, _⟩ => ⟨S65536x16, .f32⟩
  | .hbm, ⟨9, _⟩ => ⟨S65536x16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S1x16, .f32⟩
  | .hbm, ⟨14, _⟩ => ⟨S65536x16, .f32⟩
  | .hbm, ⟨15, _⟩ => ⟨S65536x16, .f32⟩
  | .hbm, ⟨16, _⟩ => ⟨S65536x16, .f32⟩
  | .hbm, ⟨17, _⟩ => ⟨S65536x16, .f32⟩
  | .hbm, ⟨18, _⟩ => ⟨S_, .f32⟩
  | .hbm, ⟨19, _⟩ => ⟨S65536x16, .f32⟩
  | .hbm, ⟨20, _⟩ => ⟨S65536x16, .f32⟩
  | .hbm, ⟨21, _⟩ => ⟨S_, .f32⟩
  | .hbm, ⟨22, _⟩ => ⟨S65536x16, .f32⟩
  | .hbm, ⟨23, _⟩ => ⟨S65536x16, .f32⟩
  | .hbm, ⟨24, _⟩ => ⟨S65536x128, .f32⟩
  | .hbm, ⟨25, _⟩ => ⟨S_, .f32⟩
  | .hbm, ⟨26, _⟩ => ⟨S128, .f32⟩
  | .hbm, ⟨27, _⟩ => ⟨S1x128, .f32⟩
  | .hbm, ⟨28, _⟩ => ⟨S65536x128, .f32⟩
  | .hbm, ⟨29, _⟩ => ⟨S65536x128, .f32⟩
  | .hbm, ⟨30, _⟩ => ⟨S16, .i32⟩
  | .hbm, ⟨31, _⟩ => ⟨S_, .i32⟩
  | .hbm, ⟨32, _⟩ => ⟨S16, .i32⟩
  | .hbm, ⟨33, _⟩ => ⟨S16, .i1⟩
  | .hbm, ⟨34, _⟩ => ⟨S_, .i32⟩
  | .hbm, ⟨35, _⟩ => ⟨S16, .i32⟩
  | .hbm, ⟨36, _⟩ => ⟨S16, .i32⟩
  | .hbm, ⟨37, _⟩ => ⟨S16, .i32⟩
  | .hbm, ⟨38, _⟩ => ⟨S_, .i32⟩
  | .hbm, ⟨39, _⟩ => ⟨S65536x16, .i32⟩
  | .hbm, ⟨40, _⟩ => ⟨S65536x16, .i1⟩
  | .hbm, ⟨41, _⟩ => ⟨S_, .i32⟩
  | .hbm, ⟨42, _⟩ => ⟨S65536x16, .i32⟩
  | .hbm, ⟨43, _⟩ => ⟨S65536x16, .i32⟩
  | .hbm, ⟨44, _⟩ => ⟨S65536x16, .i32⟩
  | .hbm, ⟨45, _⟩ => ⟨S65536x16, .i32⟩
  | .hbm, ⟨46, _⟩ => ⟨S65536x16x1, .i32⟩
  | .hbm, ⟨47, _⟩ => ⟨S65536x16x1, .i32⟩
  | .hbm, ⟨48, _⟩ => ⟨S65536x16x2, .i32⟩
  | .hbm, ⟨49, _⟩ => ⟨S65536x16x128, .f32⟩
  | .hbm, ⟨50, _⟩ => ⟨S_, .f32⟩
  | .hbm, ⟨51, _⟩ => ⟨S65536x128, .f32⟩
  | .hbm, ⟨52, _⟩ => ⟨S65536x128, .f32⟩
  | _, _ => ⟨S65536x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S65536x16_0_1 : S1x16.BroadcastsInDim S65536x16 (![0, 1] : Fin 2 → Fin S65536x16.rank)
  bcast_S_S16 : S_.BroadcastsInDim S16 (![] : Fin 0 → Fin S16.rank)
  bcast_S_S65536x16 : S_.BroadcastsInDim S65536x16 (![] : Fin 0 → Fin S65536x16.rank)
  reducesTo_S16x128_S128_d0 : S16x128.ReducesTo [0] S128
  h_S_ : 0 < S_.numel
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S16_S65536x16_1 : S16.BroadcastsInDim S65536x16 (![1] : Fin 1 → Fin S65536x16.rank)
  bcast_S65536x16_S65536x16x1_0_1 : S65536x16.BroadcastsInDim S65536x16x1 (![0, 1] : Fin 2 → Fin S65536x16x1.rank)
  concatenates_S65536x16x1_S65536x16x1_S65536x16x2_d2 : Shape.Concatenates [S65536x16x1, S65536x16x1] S65536x16x2 2
  reducesTo_S65536x16x128_S65536x128_d1 : S65536x16x128.ReducesTo [1] S65536x128
  dot_S65536x16_S16x128_S65536x128_1_0_0_1_n_n_wf : DotDims.WF S65536x16 S16x128 S65536x128 [1] [0] [0] [1] [] []
  gather_S16x65x128_S65536x16x2_S65536x16x128_2_01_n_n_01_2_11128_wf : GatherDims.WF S16x65x128 S65536x16x2 S65536x16x128 [2] [0, 1] [] [0, 1] [] 2 ![1, 1, 128]

variable [Facts₀]

def dot_S65536x16_S16x128_S65536x128_1_0_0_1_n_n : DotDims S65536x16 S16x128 S65536x128 where
  lhsContracting := [1]
  rhsContracting := [0]
  lhsNonContracting := [0]
  rhsNonContracting := [1]
  lhsBatch := []
  rhsBatch := []
  wf := dot_S65536x16_S16x128_S65536x128_1_0_0_1_n_n_wf
def gather_S16x65x128_S65536x16x2_S65536x16x128_2_01_n_n_01_2_11128 : GatherDims S16x65x128 S65536x16x2 S65536x16x128 where
  offsetDims := [2]
  collapsedSliceDims := [0, 1]
  operandBatchingDims := []
  startIndicesBatchingDims := []
  startIndexMap := [0, 1]
  indexVectorDim := 2
  sliceSizes := ![1, 1, 128]
  wf := gather_S16x65x128_S65536x16x2_S65536x16x128_2_01_n_n_01_2_11128_wf

class Facts : Prop extends Facts₀ where

variable [Facts]
-- ==== Proof.BlockValue.lean ====
/-
  What the kernel body leaves in its output block, as ONE term over the seven blocks it is given.

  The body stores the whole output block nine times. The first store is the numeric branch. Each later store adds one
  attribute pair's contribution to what a load of the same whole block has just read back. A load through the whole
  block after a store through the whole block reads that store's value, whatever was stored before; so the block ends
  holding the ninth value, and each value is the previous one plus one pair's term: a composition of the nine
  payloads, the pair p reading rows [p, ·, ·] of the paired table.
-/
import proofs.«416551_j29695403885264_2_alg».proof.Proof.Gen.KernelIdeal.Frame
import Idealize.ShloMosaic.Lib.Pipeline.Value

set_option maxRecDepth 16384

noncomputable section

namespace Cert.EmbedSum.Kern

open Cert.KernelIdeal Cert.KernelIdeal.Gen
open Idealize.ShloMosaic Idealize.ShloMosaic.TcCoe Idealize.ShloMosaic.Tactic Idealize.SL.Sem

variable {F : FTy → Type} [FloatOps F]

/-- A load through the whole block, after a LAST store through the whole block, reads that store's value whatever the
    earlier stores were. -/
theorem readCov_cons_unit_zero {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., View.mem_set_unit_zero rfl inb y⟩),
    View.canon_cons_unit_zero rfl, View.ld_unit_zero rfl]

/-- What the body leaves in the output block, as one composition over the seven input blocks: the numeric branch
    first, then the eight attribute pairs added one after the other, pair p against rows [p, ·, ·] of the paired table. -/
def blockVal (x0 : Vec F S4096x16 .f32) (x1 : Vec F S4096x16 .i32) (x2 x3 : Vec F S1x16 .f32) (x4 : Vec F S16x128 .bf16)
    (x5 : Vec F S1x128 .f32) (x6 : Vec F S8x256x128 .bf16) : FVec F S4096x128 .f32 :=
  let io : IVec S1x256 32 := iota .tc S1x256 32 [1] iota_S1x256_d1_w32
  let slab (p : Fin 3 → Nat) (inb : ∀ a, p a + S1x256x128.size a ≤ S8x256x128.size a) : Vec F S1x256x128 .bf16 :=
    View.ld x6 (Rect.unit (s := S8x256x128) p S1x256x128.size inb)
  k0_pay2 x1 io (slab ![7, 0, 0] inb_S8x256x128_S1x256x128_7_0_0)
    (k0_pay1 (k0_pay13 x1 io) (slab ![6, 0, 0] inb_S8x256x128_S1x256x128_6_0_0)
      (k0_pay12 x1 io (slab ![5, 0, 0] inb_S8x256x128_S1x256x128_5_0_0)
        (k0_pay11 (k0_pay10 x1 io) (slab ![4, 0, 0] inb_S8x256x128_S1x256x128_4_0_0)
          (k0_pay9 x1 io (slab ![3, 0, 0] inb_S8x256x128_S1x256x128_3_0_0)
            (k0_pay8 (k0_pay7 x1 io) (slab ![2, 0, 0] inb_S8x256x128_S1x256x128_2_0_0)
              (k0_pay6 x1 io (slab ![1, 0, 0] inb_S8x256x128_S1x256x128_1_0_0)
                (k0_pay5 (k0_pay4 x1) (slab ![0, 0, 0] inb_S8x256x128_S1x256x128_0_0_0)
                  (k0_pay3 x0 x2 x3 x4 x5))))))))

set_option maxHeartbeats 1000000 in
/-- The block the run leaves is that composition. -/
theorem out_eq_blockVal (c : Dev nD) (i : grid0.Coords) (arg1 : Memref sig .tc .vmem S4096x16 .f32) (harg1 : arg1.IsWhole) (arg2 : Memref sig .tc .vmem S4096x16 .i32) (harg2 : arg2.IsWhole) (arg3 : Memref sig .tc .vmem S1x16 .f32) (harg3 : arg3.IsWhole) (arg4 : Memref sig .tc .vmem S1x16 .f32) (harg4 : arg4.IsWhole) (arg5 : Memref sig .tc .vmem S16x128 .bf16) (harg5 : arg5.IsWhole) (arg6 : Memref sig .tc .vmem S1x128 .f32) (harg6 : arg6.IsWhole) (arg7 : Memref sig .tc .vmem S8x256x128 .bf16) (harg7 : arg7.IsWhole) (arg8 : Memref sig .tc .vmem S4096x128 .f32) (harg8 : arg8.IsWhole) (x0 : Vec F S4096x16 .f32) (x1 : Vec F S4096x16 .i32) (x2 : Vec F S1x16 .f32) (x3 : Vec F S1x16 .f32) (x4 : Vec F S16x128 .bf16) (x5 : Vec F S1x128 .f32) (x6 : Vec F S8x256x128 .bf16) :
    out0_A_7 (F := F) c i arg1 harg1 arg2 harg2 arg3 harg3 arg4 harg4 arg5 harg5 arg6 harg6 arg7 harg7 arg8 harg8 x0 x1 x2 x3 x4 x5 x6 = blockVal x0 x1 x2 x3 x4 x5 x6 := by
  have hz : (![0, 0] : Fin 2 → Nat) = fun _ => 0 := by funext a; fin_cases a <;> rfl
  unfold out0_A_7
  rw [View.read_writes_eq_canon _ _ _ (cover0_A_7 c i arg1 harg1 arg2 harg2 arg3 harg3 arg4 harg4 arg5 harg5 arg6 harg6 arg7 harg7 arg8 harg8 x0 x1 x2 x3 x4 x5 x6)]
  unfold kernelRun0_A
  dsimp only
  sl_unfold_words
  rw [View.canon_cons_unit_zero (S := S4096x128) hz]
  simp only [readCov_cons_unit_zero (S := S4096x128) _ hz, View.readAt_eq_ld, harg1.read_unread, harg2.read_unread,
    harg3.read_unread, harg4.read_unread, harg5.read_unread, harg6.read_unread, harg7.read_unread,
    View.ld_unit_zero (S := S4096x16) hz, View.ld_unit_zero (S := S1x16) hz, View.ld_unit_zero (S := S16x128) hz,
    View.ld_unit_zero (S := S1x128) hz]
  rfl

end Cert.EmbedSum.Kern

end
-- ==== Proof.Spec.lean ====
/-
  The value both programs compute, index by index, on the extended reals.

  Row b of the result, column d, is the sum of three things:
    * over the 16 numeric attributes k, the squashed standardised attribute σ((x[b,k] − μ[k]) / (s[k] + ε)) times the
      weight W[k,d]   (σ the logistic function, ε the single-precision number nearest 1e-5);
    * over the 16 numeric attributes k, the bias lb[k,d];
    * over the 16 categorical attributes c, row cat[b,c] of table c, column d.
  A category word names a table row as a gather does: read as a signed integer and clamped into the 65 rows. When every
  word already is a row number (`InRange`) the clamp does nothing.
-/
import Idealize.ShloMosaic.PureOps.Ideal
import Idealize.ShloMosaic.Lib.ValueIdx

noncomputable section

open scoped BigOperators

namespace Cert.EmbedSum

open Idealize.ShloMosaic Idealize.ShloMosaic.ValueIdx

/-- batch × attributes -/
abbrev SBxA : Shape := ⟨2, ![65536, 16]⟩
/-- attributes -/
abbrev SA : Shape := ⟨1, ![16]⟩
/-- attributes × features -/
abbrev SAxD : Shape := ⟨2, ![16, 128]⟩
/-- tables × rows × features -/
abbrev STab : Shape := ⟨3, ![16, 65, 128]⟩
/-- batch × features -/
abbrev SBxD : Shape := ⟨2, ![65536, 128]⟩

/-- The table row a category word names: the word as a signed integer, clamped into the 65 rows. -/
def row (w : BitVec 32) : Fin 65 := ⟨min w.toInt.toNat 64, by omega⟩

/-- Every category word is a row number: 0 ≤ w < 65 as a signed integer. -/
def InRange (cat : IVec SBxA 32) : Prop :=
  ∀ (b : Fin 65536) (c : Fin 16), 0 ≤ (cat (ix2 b c)).toInt ∧ (cat (ix2 b c)).toInt < 65

/-- The squashed standardised attribute σ((x − μ) / (s + ε)). -/
def gate (x μ s : EReal) : EReal := Ideal.logistic (Ideal.div (x - μ) (s + Ideal.ofBits .f32 0x3727C5AC#32))

/-- The common value. -/
def G (x : FVec Ideal SBxA .f32) (μ s : FVec Ideal SA .f32) (W lb : FVec Ideal SAxD .f32) (tab : FVec Ideal STab .f32)
    (cat : IVec SBxA 32) : FVec Ideal SBxD .f32 := fun i =>
  ((∑ k : Fin 16, gate (x (ix2 (i 0) k)) (μ (ix1 k)) (s (ix1 k)) * W (ix2 k (i 1))) + ∑ k : Fin 16, lb (ix2 k (i 1)))
    + ∑ c : Fin 16, tab (ix3 c (row (cat (ix2 (i 0) c))) (i 1))

/-- Under `InRange` the row a word names is the word's own value. -/
theorem row_val_of_range (w : BitVec 32) (h0 : 0 ≤ w.toInt) (h1 : w.toInt < 65) : (row w).val = w.toNat ∧ w.toNat < 65 := by
  have h32 := w.isLt
  unfold row
  unfold BitVec.toInt at h0 h1 ⊢
  split at h0 <;> simp at h0 h1 ⊢ <;> omega

end Cert.EmbedSum

end
-- ==== Proof.NumericAt.lean ====
/-
  The numeric branch of one block, read at an index: row r, column d of the first value the body stores is the sum over
  the 16 numeric attributes k of the squashed standardised attribute times the weight W[k,d], plus the bias at d.
-/
import proofs.«416551_j29695403885264_2_alg».proof.Proof.Gen.KernelIdeal.Skeleton
import proofs.«416551_j29695403885264_2_alg».proof.Proof.Spec
import Idealize.ShloMosaic.PureOps.Ideal.Laws
import Idealize.ShloMosaic.Lib.Pipeline.Value
import Idealize.ShloMosaic.Lib.ValueLayout

noncomputable section

open scoped BigOperators

namespace Cert.EmbedSum.Kern

open Cert.KernelIdeal Cert.KernelIdeal.Gen Idealize.ShloMosaic Idealize.ShloMosaic.TcCoe Idealize.ShloMosaic.ValueIdx Idealize.SL.Sem

/-- Result axis 0 is the left operand's free axis. -/
theorem lhs_axis0 (i : S4096x128.Idx) (q : dot_S4096x16_S16x128_S4096x128_1_0_0_1_n_n.contr.Idx) :
    (dot_S4096x16_S16x128_S4096x128_1_0_0_1_n_n.lhsIdx i q 0).val = (i 0).val := by
  unfold DotDims.lhsIdx
  rw [dif_neg (show ¬(0 : Fin S4096x16.rank) ∈ dot_S4096x16_S16x128_S4096x128_1_0_0_1_n_n.lhsBatch by decide), dif_pos (show (0 : Fin S4096x16.rank) ∈ dot_S4096x16_S16x128_S4096x128_1_0_0_1_n_n.lhsNonContracting by decide)]
  rfl
/-- The left operand's axis 1 is the contracted one. -/
theorem lhs_axis1 (i : S4096x128.Idx) (q : dot_S4096x16_S16x128_S4096x128_1_0_0_1_n_n.contr.Idx) :
    (dot_S4096x16_S16x128_S4096x128_1_0_0_1_n_n.lhsIdx i q 1).val = (q ⟨0, by decide⟩).val :=
  dot_S4096x16_S16x128_S4096x128_1_0_0_1_n_n.lhsIdx_val_of_single rfl i q
/-- The right operand's axis 0 is the contracted one. -/
theorem rhs_axis0 (i : S4096x128.Idx) (q : dot_S4096x16_S16x128_S4096x128_1_0_0_1_n_n.contr.Idx) :
    (dot_S4096x16_S16x128_S4096x128_1_0_0_1_n_n.rhsIdx i q 0).val = (q ⟨0, by decide⟩).val :=
  dot_S4096x16_S16x128_S4096x128_1_0_0_1_n_n.rhsIdx_val_of_single rfl i q
/-- Result axis 1 is the right operand's free axis. -/
theorem rhs_axis1 (i : S4096x128.Idx) (q : dot_S4096x16_S16x128_S4096x128_1_0_0_1_n_n.contr.Idx) :
    (dot_S4096x16_S16x128_S4096x128_1_0_0_1_n_n.rhsIdx i q 1).val = (i 1).val := by
  unfold DotDims.rhsIdx
  rw [dif_neg (show ¬(1 : Fin S16x128.rank) ∈ dot_S4096x16_S16x128_S4096x128_1_0_0_1_n_n.rhsBatch by decide), dif_pos (show (1 : Fin S16x128.rank) ∈ dot_S4096x16_S16x128_S4096x128_1_0_0_1_n_n.rhsNonContracting by decide)]
  rfl

theorem numeric_at (x0 : Vec Ideal S4096x16 .f32) (x2 x3 : Vec Ideal S1x16 .f32) (x4 : Vec Ideal S16x128 .bf16)
    (x5 : Vec Ideal S1x128 .f32) (r : Fin 4096) (d : Fin 128) :
    k0_pay3 (F := Ideal) x0 x2 x3 x4 x5 (ix2 r d)
      = (∑ k : Fin 16, gate (x0 (ix2 r k)) (x2 (ix2 (0 : Fin 1) k)) (x3 (ix2 (0 : Fin 1) k)) * x4 (ix2 k d))
        + x5 (ix2 (0 : Fin 1) d) := by
  unfold k0_pay3
  simp only [shapeCast_self]
  rw [addf_apply]
  refine congrArg₂ (· + ·) ?_ ?_
  · refine (Ideal.matmul_constant_zero_apply (φ₁ := .bf16) (φ₂ := .bf16) dot_S4096x16_S16x128_S4096x128_1_0_0_1_n_n none _ x4 (ix2 r d)).trans ?_
    rw [← Equiv.sum_comp (ValueIdx.contrEquiv1 dot_S4096x16_S16x128_S4096x128_1_0_0_1_n_n 16 rfl rfl).symm]
    refine Finset.sum_congr rfl fun k _ => ?_
    have hk := ValueIdx.contrEquiv1_symm_val dot_S4096x16_S16x128_S4096x128_1_0_0_1_n_n 16 rfl rfl k
    have el : dot_S4096x16_S16x128_S4096x128_1_0_0_1_n_n.lhsIdx (ix2 r d) ((ValueIdx.contrEquiv1 dot_S4096x16_S16x128_S4096x128_1_0_0_1_n_n 16 rfl rfl).symm k) = ix2 r k := funext fun a => Fin.ext (by
      match a with
      | ⟨0, _⟩ => exact lhs_axis0 _ _
      | ⟨1, _⟩ => exact (lhs_axis1 _ _).trans hk)
    have er : dot_S4096x16_S16x128_S4096x128_1_0_0_1_n_n.rhsIdx (ix2 r d) ((ValueIdx.contrEquiv1 dot_S4096x16_S16x128_S4096x128_1_0_0_1_n_n 16 rfl rfl).symm k) = ix2 k d := funext fun a => Fin.ext (by
      match a with
      | ⟨0, _⟩ => exact (rhs_axis0 _ _).trans hk
      | ⟨1, _⟩ => exact rhs_axis1 _ _)
    rw [el, er]
    refine congrArg (· * x4 (ix2 k d)) ?_
    -- the conversion to the narrower format is the identity on the extended reals; the rest is pointwise
    show Ideal.logistic (Ideal.div (x0 (ix2 r k) - _) _) = Ideal.logistic (Ideal.div (x0 (ix2 r k) - _) _)
    -- a row vector broadcast down the rows reads its column-k entry
    refine congrArg Ideal.logistic (congrArg₂ Ideal.div (congrArg (x0 (ix2 r k) - ·) ?_) ?_)
    · exact broadcastTo_apply x2 _ (ix2 r k) (ix2 (0 : Fin 1) k) (fun a => by match a with | ⟨0, _⟩ => rfl | ⟨1, _⟩ => rfl)
    · exact (broadcastTo_apply _ _ (ix2 r k) (ix2 (0 : Fin 1) k) (fun a => by match a with | ⟨0, _⟩ => rfl | ⟨1, _⟩ => rfl)).trans rfl
  · exact broadcastTo_apply x5 _ (ix2 r d) (ix2 (0 : Fin 1) d) (fun a => by match a with | ⟨0, _⟩ => rfl | ⟨1, _⟩ => rfl)

end Cert.EmbedSum.Kern

end
-- ==== Proof.PairStep.lean ====
/-
  One attribute pair's step, read at an index. The body builds, for row r, a 0/1 vector over 256 lanes with a one at
  lane a and at lane 128 + b (a, b the row's two category words, both below 128), multiplies it into a 256-row slab and
  adds the product to what the block held: at column d that adds rows a and 128 + b of the slab.
-/
import proofs.«416551_j29695403885264_2_alg».proof.Proof.Gen.KernelIdeal.Skeleton
import proofs.«416551_j29695403885264_2_alg».proof.Proof.Spec
import Idealize.ShloMosaic.PureOps.Ideal.Laws
import Idealize.ShloMosaic.Lib.Pipeline.Value
import Idealize.ShloMosaic.Lib.ValueLayout

noncomputable section

open scoped BigOperators

namespace Cert.EmbedSum.Kern

open Cert.KernelIdeal Cert.KernelIdeal.Gen Idealize.ShloMosaic Idealize.ShloMosaic.TcCoe Idealize.ShloMosaic.ValueIdx Idealize.SL.Sem

/-- Rows a and 128 + b of a 256-row slab at column d (the words taken modulo 128, which changes nothing below 128). -/
def pick (s : Vec Ideal S1x256x128 .bf16) (a b : BitVec 32) (d : Fin 128) : EReal :=
  s (ix3 (0 : Fin 1) (⟨a.toNat % 128, by omega⟩ : Fin 256) d) + s (ix3 (0 : Fin 1) (⟨128 + b.toNat % 128, by omega⟩ : Fin 256) d)

theorem mm_lhs_0 (i : S4096x128.Idx) (q : dot_S4096x256_S256x128_S4096x128_1_0_0_1_n_n.contr.Idx) :
    (dot_S4096x256_S256x128_S4096x128_1_0_0_1_n_n.lhsIdx i q 0).val = (i 0).val := by
  unfold DotDims.lhsIdx
  rw [dif_neg (show ¬(0 : Fin S4096x256.rank) ∈ dot_S4096x256_S256x128_S4096x128_1_0_0_1_n_n.lhsBatch by decide), dif_pos (show (0 : Fin S4096x256.rank) ∈ dot_S4096x256_S256x128_S4096x128_1_0_0_1_n_n.lhsNonContracting by decide)]
  rfl
theorem mm_lhs_1 (i : S4096x128.Idx) (q : dot_S4096x256_S256x128_S4096x128_1_0_0_1_n_n.contr.Idx) :
    (dot_S4096x256_S256x128_S4096x128_1_0_0_1_n_n.lhsIdx i q 1).val = (q ⟨0, by decide⟩).val :=
  dot_S4096x256_S256x128_S4096x128_1_0_0_1_n_n.lhsIdx_val_of_single rfl i q
theorem mm_rhs_0 (i : S4096x128.Idx) (q : dot_S4096x256_S256x128_S4096x128_1_0_0_1_n_n.contr.Idx) :
    (dot_S4096x256_S256x128_S4096x128_1_0_0_1_n_n.rhsIdx i q 0).val = (q ⟨0, by decide⟩).val :=
  dot_S4096x256_S256x128_S4096x128_1_0_0_1_n_n.rhsIdx_val_of_single rfl i q
theorem mm_rhs_1 (i : S4096x128.Idx) (q : dot_S4096x256_S256x128_S4096x128_1_0_0_1_n_n.contr.Idx) :
    (dot_S4096x256_S256x128_S4096x128_1_0_0_1_n_n.rhsIdx i q 1).val = (i 1).val := by
  unfold DotDims.rhsIdx
  rw [dif_neg (show ¬(1 : Fin S256x128.rank) ∈ dot_S4096x256_S256x128_S4096x128_1_0_0_1_n_n.rhsBatch by decide), dif_pos (show (1 : Fin S256x128.rank) ∈ dot_S4096x256_S256x128_S4096x128_1_0_0_1_n_n.rhsNonContracting by decide)]
  rfl

theorem mm_apply (L : FVec Ideal S4096x256 .bf16) (R : FVec Ideal S256x128 .bf16) (r : Fin 4096) (d : Fin 128) :
    matmul dot_S4096x256_S256x128_S4096x128_1_0_0_1_n_n none L R (constant (F := Ideal) S4096x128 .f32 0x00000000#32) (ix2 r d)
      = ∑ k : Fin 256, L (ix2 r k) * R (ix2 k d) := by
  simp only [matmul]
  rw [Ideal.matmul_constant_zero_apply, ← Equiv.sum_comp (ValueIdx.contrEquiv1 dot_S4096x256_S256x128_S4096x128_1_0_0_1_n_n 256 rfl rfl).symm]
  refine Finset.sum_congr rfl fun k _ => ?_
  have hk := ValueIdx.contrEquiv1_symm_val dot_S4096x256_S256x128_S4096x128_1_0_0_1_n_n 256 rfl rfl k
  have el : dot_S4096x256_S256x128_S4096x128_1_0_0_1_n_n.lhsIdx (ix2 r d) ((ValueIdx.contrEquiv1 dot_S4096x256_S256x128_S4096x128_1_0_0_1_n_n 256 rfl rfl).symm k) = ix2 r k := funext fun a => Fin.ext (by
    match a with
    | ⟨0, _⟩ => exact mm_lhs_0 _ _
    | ⟨1, _⟩ => exact (mm_lhs_1 _ _).trans hk)
  have er : dot_S4096x256_S256x128_S4096x128_1_0_0_1_n_n.rhsIdx (ix2 r d) ((ValueIdx.contrEquiv1 dot_S4096x256_S256x128_S4096x128_1_0_0_1_n_n 256 rfl rfl).symm k) = ix2 k d := funext fun a => Fin.ext (by
    match a with
    | ⟨0, _⟩ => exact (mm_rhs_0 _ _).trans hk
    | ⟨1, _⟩ => exact mm_rhs_1 _ _)
  rw [el, er]

/-- A column broadcast along the lanes reads its row. -/
theorem bcast_col_apply (x : IVec S4096x1 32) (r : Fin 4096) (j : Fin 256) :
    broadcastTo S4096x256 x broadcasts_S4096x1_S4096x256 (ix2 r j) = x (ix2 r 0) := by
  refine broadcastTo_apply x _ (ix2 r j) (ix2 r 0) fun a => ?_
  match a with
  | ⟨0, _⟩ => rfl
  | ⟨1, _⟩ => rfl

/-- A row broadcast down the rows reads its lane. -/
theorem bcast_row_apply (x : IVec S1x256 32) (r : Fin 4096) (j : Fin 256) :
    broadcastTo S4096x256 x broadcasts_S1x256_S4096x256 (ix2 r j) = x (ix2 0 j) := by
  refine broadcastTo_apply x _ (ix2 r j) (ix2 0 j) fun a => ?_
  match a with
  | ⟨0, _⟩ => rfl
  | ⟨1, _⟩ => rfl

/-- Lane j of the lane counter is the word j. -/
theorem lane_iota_apply (j : Fin 256) :
    iota .tc S1x256 32 [1] iota_S1x256_d1_w32 (ix2 0 j) = BitVec.ofNat 32 j.val :=
  iota_single_apply .tc S1x256 32 1 iota_S1x256_d1_w32 (ix2 0 j)

/-- The 0/1 mask of a row: lane j is set when it equals the first column's word or 128 plus the second column's word. -/
def maskBits (col0 col1 : IVec S4096x1 32) (io : IVec S1x256 32) : IVec S4096x256 1 :=
  ori (cmpi .eq (broadcastTo S4096x256 col0 broadcasts_S4096x1_S4096x256) (broadcastTo S4096x256 io broadcasts_S1x256_S4096x256))
    (cmpi .eq (broadcastTo S4096x256 (addi col1 (broadcast S4096x1 128#32)) broadcasts_S4096x1_S4096x256) (broadcastTo S4096x256 io broadcasts_S1x256_S4096x256))

theorem maskBits_apply (col0 col1 : IVec S4096x1 32) (r : Fin 4096) (j : Fin 256) :
    maskBits col0 col1 (iota .tc S1x256 32 [1] iota_S1x256_d1_w32) (ix2 r j)
      = IntOp.ori (IntOp.cmpi .eq (col0 (ix2 r 0)) (BitVec.ofNat 32 j.val)) (IntOp.cmpi .eq (IntOp.addi (col1 (ix2 r 0)) 128#32) (BitVec.ofNat 32 j.val)) := by
  show IntOp.ori (IntOp.cmpi .eq (broadcastTo S4096x256 col0 broadcasts_S4096x1_S4096x256 (ix2 r j)) (broadcastTo S4096x256 _ broadcasts_S1x256_S4096x256 (ix2 r j)))
    (IntOp.cmpi .eq (broadcastTo S4096x256 (addi col1 (broadcast S4096x1 128#32)) broadcasts_S4096x1_S4096x256 (ix2 r j)) (broadcastTo S4096x256 _ broadcasts_S1x256_S4096x256 (ix2 r j))) = _
  rw [bcast_col_apply, bcast_col_apply, bcast_row_apply, lane_iota_apply]
  rfl

/-- The two comparisons on words below 128 and a lane below 256, as a condition on naturals. -/
theorem lane_word (a b : BitVec 32) (ha : a.toNat < 128) (hb : b.toNat < 128) (j : Nat) (hj : j < 256) :
    IntOp.ori (IntOp.cmpi .eq a (BitVec.ofNat 32 j)) (IntOp.cmpi .eq (IntOp.addi b 128#32) (BitVec.ofNat 32 j))
      = if j = a.toNat ∨ j = 128 + b.toNat then 1#1 else 0#1 := by
  have e1 : (a == BitVec.ofNat 32 j) = decide (j = a.toNat) := by
    rw [Bool.eq_iff_iff, beq_iff_eq, decide_eq_true_iff]
    constructor
    · intro h; rw [h, BitVec.toNat_ofNat]; omega
    · intro h; apply BitVec.eq_of_toNat_eq; rw [BitVec.toNat_ofNat]; omega
  have e2 : (b + 128#32 == BitVec.ofNat 32 j) = decide (j = 128 + b.toNat) := by
    rw [Bool.eq_iff_iff, beq_iff_eq, decide_eq_true_iff]
    constructor
    · intro h
      have := congrArg BitVec.toNat h
      rw [BitVec.toNat_add, BitVec.toNat_ofNat, BitVec.toNat_ofNat] at this
      omega
    · intro h; apply BitVec.eq_of_toNat_eq; rw [BitVec.toNat_add, BitVec.toNat_ofNat, BitVec.toNat_ofNat]; omega
  unfold IntOp.ori IntOp.cmpi IntOp.addi
  simp only [e1, e2]
  by_cases h1 : j = a.toNat
  · have h2 : ¬ j = 128 + b.toNat := by omega
    rw [decide_eq_true h1, decide_eq_false h2, if_pos (Or.inl h1)]; decide
  · by_cases h2 : j = 128 + b.toNat
    · rw [decide_eq_false h1, decide_eq_true h2, if_pos (Or.inr h2)]; decide
    · rw [decide_eq_false h1, decide_eq_false h2, if_neg (fun h => h.elim h1 h2)]; decide

/-- The 0/1 mask as numbers: widened to a 32-bit word, read as an integer, kept through the narrowing of the format. -/
def maskF (m : IVec S4096x256 1) : FVec Ideal S4096x256 .bf16 :=
  truncf .bf16 (sitofp (F := Ideal) .f32 (extui 32 m natLt_1_32)) bitsLt_bf16_f32

theorem word_one_val : (((1#1 : BitVec 1).setWidth 32).toInt : ℝ) = 1 := by
  have : ((1#1 : BitVec 1).setWidth 32).toInt = 1 := by decide
  rw [this]; norm_num
theorem word_zero_val : (((0#1 : BitVec 1).setWidth 32).toInt : ℝ) = 0 := by
  have : ((0#1 : BitVec 1).setWidth 32).toInt = 0 := by decide
  rw [this]; norm_num

theorem maskF_apply (m : IVec S4096x256 1) (i : S4096x256.Idx) (p : Prop) [Decidable p] (hm : m i = if p then 1#1 else 0#1) :
    maskF m i = if p then 1 else 0 := by
  show ((((m i).setWidth 32).toInt : ℝ) : EReal) = _
  rw [hm]
  by_cases hp : p
  · rw [if_pos hp, if_pos hp, word_one_val]; rfl
  · rw [if_neg hp, if_neg hp, word_zero_val]; rfl

/-- The slab viewed as 256 rows reads the one block's row. -/
theorem slab_apply (s : Vec Ideal S1x256x128 .bf16) (k : Fin 256) (d : Fin 128) :
    shapeCast S256x128 s shapeCasts_S1x256x128_S256x128 (ix2 k d) = s (ix3 (0 : Fin 1) k d) := by
  refine (shapeCast_dropUnit_apply ![256, 128] s shapeCasts_S1x256x128_S256x128 (ix2 k d)).trans ?_
  refine congrArg s (funext fun a => ?_)
  match a with
  | ⟨0, _⟩ => rfl
  | ⟨1, _⟩ => rfl
  | ⟨2, _⟩ => rfl

/-- A sum over 256 lanes against a 0/1 vector with ones at two distinct lanes A and 128 + B keeps those two terms:
    on the extended reals 0 * x = 0 and 1 * x = x for every x. -/
theorem sum_two (R : Fin 256 → EReal) (A B : Nat) (hA : A < 128) (hB : B < 128) :
    ∑ k : Fin 256, (if k.val = A ∨ k.val = 128 + B then (1 : EReal) else 0) * R k
      = R ⟨A, by omega⟩ + R ⟨128 + B, by omega⟩ := by
  have e : ∀ k : Fin 256, (if k.val = A ∨ k.val = 128 + B then (1 : EReal) else 0) * R k
      = (if k = (⟨A, by omega⟩ : Fin 256) then R k else 0) + (if k = (⟨128 + B, by omega⟩ : Fin 256) then R k else 0) := by
    intro k
    by_cases h1 : k.val = A
    · have h2 : ¬ k.val = 128 + B := by omega
      rw [if_pos (Or.inl h1), if_pos (Fin.ext h1), if_neg (fun h => h2 (congrArg Fin.val h)), one_mul, add_zero]
    · by_cases h2 : k.val = 128 + B
      · rw [if_pos (Or.inr h2), if_neg (fun h => h1 (congrArg Fin.val h)), if_pos (Fin.ext h2), one_mul, zero_add]
      · rw [if_neg (fun h => h.elim h1 h2), if_neg (fun h => h1 (congrArg Fin.val h)), if_neg (fun h => h2 (congrArg Fin.val h)), zero_mul, add_zero]
  rw [Finset.sum_congr rfl fun k _ => e k, Finset.sum_add_distrib, Finset.sum_ite_eq', Finset.sum_ite_eq',
    if_pos (Finset.mem_univ _), if_pos (Finset.mem_univ _)]

/-- The step over an abstract 0/1 mask whose row r has ones exactly at lanes a and 128 + b. -/
theorem step_core (m : IVec S4096x256 1) (s : Vec Ideal S1x256x128 .bf16) (prev : Vec Ideal S4096x128 .f32)
    (r : Fin 4096) (d : Fin 128) (a b : BitVec 32) (ha : a.toNat < 128) (hb : b.toNat < 128)
    (hm : ∀ j : Fin 256, m (ix2 r j) = if j.val = a.toNat ∨ j.val = 128 + b.toNat then 1#1 else 0#1) :
    addf (shapeCast S4096x128 prev shapeCasts_S4096x128_S4096x128 : FVec Ideal S4096x128 .f32)
        (matmul dot_S4096x256_S256x128_S4096x128_1_0_0_1_n_n none (maskF m) (shapeCast S256x128 s shapeCasts_S1x256x128_S256x128 : FVec Ideal S256x128 .bf16)
          (constant (F := Ideal) S4096x128 .f32 0x00000000#32)) (ix2 r d)
      = prev (ix2 r d) + pick s a b d := by
  rw [shapeCast_self]
  refine (addf_apply _ _ _).trans ?_
  refine congrArg (prev (ix2 r d) + ·) ?_
  rw [mm_apply]
  have e : ∀ k : Fin 256, maskF m (ix2 r k) * shapeCast S256x128 s shapeCasts_S1x256x128_S256x128 (ix2 k d)
      = (if k.val = a.toNat ∨ k.val = 128 + b.toNat then (1 : EReal) else 0) * s (ix3 (0 : Fin 1) k d) := by
    intro k
    rw [maskF_apply m (ix2 r k) _ (hm k), slab_apply]
  rw [Finset.sum_congr rfl fun k _ => e k, sum_two (fun k => s (ix3 (0 : Fin 1) k d)) a.toNat b.toNat ha hb]
  unfold pick
  simp only [Nat.mod_eq_of_lt ha, Nat.mod_eq_of_lt hb]

/-- The step over two abstract columns. -/
theorem step_cols (col0 col1 : IVec S4096x1 32) (s : Vec Ideal S1x256x128 .bf16) (prev : Vec Ideal S4096x128 .f32)
    (r : Fin 4096) (d : Fin 128) (ha : (col0 (ix2 r 0)).toNat < 128) (hb : (col1 (ix2 r 0)).toNat < 128) :
    addf (shapeCast S4096x128 prev shapeCasts_S4096x128_S4096x128 : FVec Ideal S4096x128 .f32)
        (matmul dot_S4096x256_S256x128_S4096x128_1_0_0_1_n_n none (maskF (maskBits col0 col1 (iota .tc S1x256 32 [1] iota_S1x256_d1_w32)))
          (shapeCast S256x128 s shapeCasts_S1x256x128_S256x128 : FVec Ideal S256x128 .bf16) (constant (F := Ideal) S4096x128 .f32 0x00000000#32)) (ix2 r d)
      = prev (ix2 r d) + pick s (col0 (ix2 r 0)) (col1 (ix2 r 0)) d :=
  step_core _ s prev r d _ _ ha hb fun j => (maskBits_apply col0 col1 r j).trans (lane_word _ _ ha hb j.val j.isLt)

/-- Column c of the category block, as a one-lane column, reads the block's column c. -/
theorem col_apply (v21 : Vec Ideal S4096x16 .i32) (c : Nat) (hc : c < 16) (h : S4096x16.Slices ![0, c] S4096x1) (r : Fin 4096) :
    extractStridedSlice S4096x1 ![0, c] v21 h (ix2 r 0) = v21 (ix2 r ⟨c, hc⟩) := by
  refine extractStridedSlice_apply ![0, c] v21 h (ix2 r 0) (ix2 r ⟨c, hc⟩) fun a => ?_
  match a with
  | ⟨0, _⟩ => show r.val = 0 + r.val; omega
  | ⟨1, _⟩ => show c = c + 0; omega

theorem pair0 (v21 : Vec Ideal S4096x16 .i32) (s : Vec Ideal S1x256x128 .bf16) (prev : Vec Ideal S4096x128 .f32)
    (r : Fin 4096) (d : Fin 128) (h : ∀ c : Fin 16, (v21 (ix2 r c)).toNat < 128) :
    k0_pay5 (F := Ideal) (k0_pay4 v21) s prev (ix2 r d) = prev (ix2 r d) + pick s (v21 (ix2 r 0)) (v21 (ix2 r 1)) d := by
  have e0 := col_apply v21 0 (by omega) slices_S4096x16_o0_0_S4096x1 r
  have e1 := col_apply v21 1 (by omega) slices_S4096x16_o0_1_S4096x1 r
  have key := step_cols (extractStridedSlice S4096x1 ![0, 0] v21 slices_S4096x16_o0_0_S4096x1)
    (extractStridedSlice S4096x1 ![0, 1] v21 slices_S4096x16_o0_1_S4096x1) s prev r d
    (by rw [e0]; exact h _) (by rw [e1]; exact h _)
  rw [e0, e1] at key
  exact key

theorem pair1 (v21 : Vec Ideal S4096x16 .i32) (s : Vec Ideal S1x256x128 .bf16) (prev : Vec Ideal S4096x128 .f32)
    (r : Fin 4096) (d : Fin 128) (h : ∀ c : Fin 16, (v21 (ix2 r c)).toNat < 128) :
    k0_pay6 (F := Ideal) v21 (iota .tc S1x256 32 [1] iota_S1x256_d1_w32) s prev (ix2 r d) = prev (ix2 r d) + pick s (v21 (ix2 r 2)) (v21 (ix2 r 3)) d := by
  have e0 := col_apply v21 2 (by omega) slices_S4096x16_o0_2_S4096x1 r
  have e1 := col_apply v21 3 (by omega) slices_S4096x16_o0_3_S4096x1 r
  have key := step_cols (extractStridedSlice S4096x1 ![0, 2] v21 slices_S4096x16_o0_2_S4096x1)
    (extractStridedSlice S4096x1 ![0, 3] v21 slices_S4096x16_o0_3_S4096x1) s prev r d
    (by rw [e0]; exact h _) (by rw [e1]; exact h _)
  rw [e0, e1] at key
  exact key

theorem pair2 (v21 : Vec Ideal S4096x16 .i32) (s : Vec Ideal S1x256x128 .bf16) (prev : Vec Ideal S4096x128 .f32)
    (r : Fin 4096) (d : Fin 128) (h : ∀ c : Fin 16, (v21 (ix2 r c)).toNat < 128) :
    k0_pay8 (F := Ideal) (k0_pay7 v21 (iota .tc S1x256 32 [1] iota_S1x256_d1_w32)) s prev (ix2 r d) = prev (ix2 r d) + pick s (v21 (ix2 r 4)) (v21 (ix2 r 5)) d := by
  have e0 := col_apply v21 4 (by omega) slices_S4096x16_o0_4_S4096x1 r
  have e1 := col_apply v21 5 (by omega) slices_S4096x16_o0_5_S4096x1 r
  have key := step_cols (extractStridedSlice S4096x1 ![0, 4] v21 slices_S4096x16_o0_4_S4096x1)
    (extractStridedSlice S4096x1 ![0, 5] v21 slices_S4096x16_o0_5_S4096x1) s prev r d
    (by rw [e0]; exact h _) (by rw [e1]; exact h _)
  rw [e0, e1] at key
  exact key

theorem pair3 (v21 : Vec Ideal S4096x16 .i32) (s : Vec Ideal S1x256x128 .bf16) (prev : Vec Ideal S4096x128 .f32)
    (r : Fin 4096) (d : Fin 128) (h : ∀ c : Fin 16, (v21 (ix2 r c)).toNat < 128) :
    k0_pay9 (F := Ideal) v21 (iota .tc S1x256 32 [1] iota_S1x256_d1_w32) s prev (ix2 r d) = prev (ix2 r d) + pick s (v21 (ix2 r 6)) (v21 (ix2 r 7)) d := by
  have e0 := col_apply v21 6 (by omega) slices_S4096x16_o0_6_S4096x1 r
  have e1 := col_apply v21 7 (by omega) slices_S4096x16_o0_7_S4096x1 r
  have key := step_cols (extractStridedSlice S4096x1 ![0, 6] v21 slices_S4096x16_o0_6_S4096x1)
    (extractStridedSlice S4096x1 ![0, 7] v21 slices_S4096x16_o0_7_S4096x1) s prev r d
    (by rw [e0]; exact h _) (by rw [e1]; exact h _)
  rw [e0, e1] at key
  exact key

theorem pair4 (v21 : Vec Ideal S4096x16 .i32) (s : Vec Ideal S1x256x128 .bf16) (prev : Vec Ideal S4096x128 .f32)
    (r : Fin 4096) (d : Fin 128) (h : ∀ c : Fin 16, (v21 (ix2 r c)).toNat < 128) :
    k0_pay11 (F := Ideal) (k0_pay10 v21 (iota .tc S1x256 32 [1] iota_S1x256_d1_w32)) s prev (ix2 r d) = prev (ix2 r d) + pick s (v21 (ix2 r 8)) (v21 (ix2 r 9)) d := by
  have e0 := col_apply v21 8 (by omega) slices_S4096x16_o0_8_S4096x1 r
  have e1 := col_apply v21 9 (by omega) slices_S4096x16_o0_9_S4096x1 r
  have key := step_cols (extractStridedSlice S4096x1 ![0, 8] v21 slices_S4096x16_o0_8_S4096x1)
    (extractStridedSlice S4096x1 ![0, 9] v21 slices_S4096x16_o0_9_S4096x1) s prev r d
    (by rw [e0]; exact h _) (by rw [e1]; exact h _)
  rw [e0, e1] at key
  exact key

theorem pair5 (v21 : Vec Ideal S4096x16 .i32) (s : Vec Ideal S1x256x128 .bf16) (prev : Vec Ideal S4096x128 .f32)
    (r : Fin 4096) (d : Fin 128) (h : ∀ c : Fin 16, (v21 (ix2 r c)).toNat < 128) :
    k0_pay12 (F := Ideal) v21 (iota .tc S1x256 32 [1] iota_S1x256_d1_w32) s prev (ix2 r d) = prev (ix2 r d) + pick s (v21 (ix2 r 10)) (v21 (ix2 r 11)) d := by
  have e0 := col_apply v21 10 (by omega) slices_S4096x16_o0_10_S4096x1 r
  have e1 := col_apply v21 11 (by omega) slices_S4096x16_o0_11_S4096x1 r
  have key := step_cols (extractStridedSlice S4096x1 ![0, 10] v21 slices_S4096x16_o0_10_S4096x1)
    (extractStridedSlice S4096x1 ![0, 11] v21 slices_S4096x16_o0_11_S4096x1) s prev r d
    (by rw [e0]; exact h _) (by rw [e1]; exact h _)
  rw [e0, e1] at key
  exact key

theorem pair6 (v21 : Vec Ideal S4096x16 .i32) (s : Vec Ideal S1x256x128 .bf16) (prev : Vec Ideal S4096x128 .f32)
    (r : Fin 4096) (d : Fin 128) (h : ∀ c : Fin 16, (v21 (ix2 r c)).toNat < 128) :
    k0_pay1 (F := Ideal) (k0_pay13 (F := Ideal) v21 (iota .tc S1x256 32 [1] iota_S1x256_d1_w32)) s prev (ix2 r d) = prev (ix2 r d) + pick s (v21 (ix2 r 12)) (v21 (ix2 r 13)) d := by
  have e0 := col_apply v21 12 (by omega) slices_S4096x16_o0_12_S4096x1 r
  have e1 := col_apply v21 13 (by omega) slices_S4096x16_o0_13_S4096x1 r
  have key := step_cols (extractStridedSlice S4096x1 ![0, 12] v21 slices_S4096x16_o0_12_S4096x1)
    (extractStridedSlice S4096x1 ![0, 13] v21 slices_S4096x16_o0_13_S4096x1) s prev r d
    (by rw [e0]; exact h _) (by rw [e1]; exact h _)
  rw [e0, e1] at key
  exact key

theorem pair7 (v21 : Vec Ideal S4096x16 .i32) (s : Vec Ideal S1x256x128 .bf16) (prev : Vec Ideal S4096x128 .f32)
    (r : Fin 4096) (d : Fin 128) (h : ∀ c : Fin 16, (v21 (ix2 r c)).toNat < 128) :
    k0_pay2 (F := Ideal) v21 (iota .tc S1x256 32 [1] iota_S1x256_d1_w32) s prev (ix2 r d) = prev (ix2 r d) + pick s (v21 (ix2 r 14)) (v21 (ix2 r 15)) d := by
  have e0 := col_apply v21 14 (by omega) slices_S4096x16_o0_14_S4096x1 r
  have e1 := col_apply v21 15 (by omega) slices_S4096x16_o0_15_S4096x1 r
  have key := step_cols (extractStridedSlice S4096x1 ![0, 14] v21 slices_S4096x16_o0_14_S4096x1)
    (extractStridedSlice S4096x1 ![0, 15] v21 slices_S4096x16_o0_15_S4096x1) s prev r d
    (by rw [e0]; exact h _) (by rw [e1]; exact h _)
  rw [e0, e1] at key
  exact key

end Cert.EmbedSum.Kern

end
-- ==== Proof.BlockAt.lean ====
/-
  The output block at row r, column d, when the row's sixteen category words are all below 128: the numeric branch
  plus, pair after pair, two rows of the pair's slab of the paired table. Slab p is rows [p, ·, ·] of the table block.
-/
import proofs.«416551_j29695403885264_2_alg».proof.Proof.BlockValue
import proofs.«416551_j29695403885264_2_alg».proof.Proof.NumericAt
import proofs.«416551_j29695403885264_2_alg».proof.Proof.PairStep

noncomputable section

open scoped BigOperators

namespace Cert.EmbedSum.Kern

open Cert.KernelIdeal Cert.KernelIdeal.Gen Idealize.ShloMosaic Idealize.ShloMosaic.TcCoe Idealize.ShloMosaic.ValueIdx Idealize.SL.Sem

/-- Rows [p, ·, ·] of the paired-table block, as the body loads them. -/
abbrev slabOf (x6 : Vec Ideal S8x256x128 .bf16) (p : Fin 3 → Nat) (inb : ∀ a, p a + S1x256x128.size a ≤ S8x256x128.size a) :
    Vec Ideal S1x256x128 .bf16 :=
  View.ld x6 (Rect.unit (s := S8x256x128) p S1x256x128.size inb)

/-- A loaded slab at lane j, column d is the table block at (p, j, d). -/
theorem slabOf_at (x6 : Vec Ideal S8x256x128 .bf16) (P : Nat) (hP : P < 8)
    (inb : ∀ a, (![P, 0, 0] : Fin 3 → Nat) a + S1x256x128.size a ≤ S8x256x128.size a)
    (j : Fin 256) (d : Fin 128) : slabOf x6 ![P, 0, 0] inb (ix3 (0 : Fin 1) j d) = x6 (ix3 (⟨P, hP⟩ : Fin 8) j d) := by
  show x6 ((Rect.unit (s := S8x256x128) ![P, 0, 0] S1x256x128.size inb).emb (ix3 (0 : Fin 1) j d)) = _
  congr 1
  funext a
  apply Fin.ext
  match a with
  | ⟨0, _⟩ => show P + 1 * 0 = P; omega
  | ⟨1, _⟩ => show 0 + 1 * j.val = j.val; omega
  | ⟨2, _⟩ => show 0 + 1 * d.val = d.val; omega

theorem blockVal_at (x0 : Vec Ideal S4096x16 .f32) (x1 : Vec Ideal S4096x16 .i32) (x2 x3 : Vec Ideal S1x16 .f32)
    (x4 : Vec Ideal S16x128 .bf16) (x5 : Vec Ideal S1x128 .f32) (x6 : Vec Ideal S8x256x128 .bf16)
    (r : Fin 4096) (d : Fin 128) (h : ∀ c : Fin 16, (x1 (ix2 r c)).toNat < 128) :
    blockVal (F := Ideal) x0 x1 x2 x3 x4 x5 x6 (ix2 r d)
      = ((∑ k : Fin 16, gate (x0 (ix2 r k)) (x2 (ix2 (0 : Fin 1) k)) (x3 (ix2 (0 : Fin 1) k)) * x4 (ix2 k d))
          + x5 (ix2 (0 : Fin 1) d))
        + pick (slabOf x6 ![0, 0, 0] inb_S8x256x128_S1x256x128_0_0_0) (x1 (ix2 r 0)) (x1 (ix2 r 1)) d
        + pick (slabOf x6 ![1, 0, 0] inb_S8x256x128_S1x256x128_1_0_0) (x1 (ix2 r 2)) (x1 (ix2 r 3)) d
        + pick (slabOf x6 ![2, 0, 0] inb_S8x256x128_S1x256x128_2_0_0) (x1 (ix2 r 4)) (x1 (ix2 r 5)) d
        + pick (slabOf x6 ![3, 0, 0] inb_S8x256x128_S1x256x128_3_0_0) (x1 (ix2 r 6)) (x1 (ix2 r 7)) d
        + pick (slabOf x6 ![4, 0, 0] inb_S8x256x128_S1x256x128_4_0_0) (x1 (ix2 r 8)) (x1 (ix2 r 9)) d
        + pick (slabOf x6 ![5, 0, 0] inb_S8x256x128_S1x256x128_5_0_0) (x1 (ix2 r 10)) (x1 (ix2 r 11)) d
        + pick (slabOf x6 ![6, 0, 0] inb_S8x256x128_S1x256x128_6_0_0) (x1 (ix2 r 12)) (x1 (ix2 r 13)) d
        + pick (slabOf x6 ![7, 0, 0] inb_S8x256x128_S1x256x128_7_0_0) (x1 (ix2 r 14)) (x1 (ix2 r 15)) d := by
  unfold blockVal
  dsimp only
  rw [pair7 _ _ _ r d h, pair6 _ _ _ r d h, pair5 _ _ _ r d h, pair4 _ _ _ r d h, pair3 _ _ _ r d h, pair2 _ _ _ r d h,
    pair1 _ _ _ r d h, pair0 _ _ _ r d h, numeric_at]

end Cert.EmbedSum.Kern

end
-- ==== Proof.HostArrays.lean ====
/-
  The arrays the host computes before the kernel region, read at an index: the means and spreads as one-row arrays, the
  weights unchanged, the bias as the column sums of lb, and the paired table: slab p stacks tables 2p and 2p+1, each
  padded with zero rows from 65 up to 128 rows.
-/
import proofs.«416551_j29695403885264_2_alg».proof.Proof.Gen.KernelIdeal.Frame
import proofs.«416551_j29695403885264_2_alg».proof.Proof.Spec
import Idealize.ShloMosaic.PureOps.Ideal.Laws
import Idealize.ShloMosaic.Lib.Pipeline.Value
import Idealize.ShloMosaic.Lib.ValueLayout
import Idealize.ShloMosaic.Lib.StableHlo.Run
import Idealize.ShloMosaic.Lib.KernelVsHost

noncomputable section

open scoped BigOperators

namespace Cert.EmbedSum.Kern

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-! The seven argument arrays, and the five arrays the host makes of them, each at its literal type. -/
abbrev argX (c : Dev nD) : FVec Ideal S65536x16 .f32 := m ((c : Thread nD τ).loc main_arg0)
abbrev argMeans (c : Dev nD) : FVec Ideal S16 .f32 := m ((c : Thread nD τ).loc main_arg1)
abbrev argSpreads (c : Dev nD) : FVec Ideal S16 .f32 := m ((c : Thread nD τ).loc main_arg2)
abbrev argW (c : Dev nD) : FVec Ideal S16x128 .f32 := m ((c : Thread nD τ).loc main_arg3)
abbrev argLb (c : Dev nD) : FVec Ideal S16x128 .f32 := m ((c : Thread nD τ).loc main_arg4)
abbrev argTab (c : Dev nD) : FVec Ideal S16x65x128 .f32 := m ((c : Thread nD τ).loc main_arg5)
abbrev argCat (c : Dev nD) : IVec S65536x16 32 := m ((c : Thread nD τ).loc main_arg6)
abbrev hostMeans (c : Dev nD) : FVec Ideal S1x16 .f32 := V m c main_v4
abbrev hostSpreads (c : Dev nD) : FVec Ideal S1x16 .f32 := V m c main_v5
abbrev hostW (c : Dev nD) : FVec Ideal S16x128 .bf16 := V m c main_v3
abbrev hostBias (c : Dev nD) : FVec Ideal S1x128 .f32 := V m c main_v7
abbrev hostTab (c : Dev nD) : FVec Ideal S8x256x128 .bf16 := V m c main_v2

/-! Each host array as a term over the argument arrays. -/

theorem means_term (c : Dev nD) : (V m c main_v4 : S1x16.Idx → EReal)
    = shapeCast S1x16 (argMeans m c) shapeCasts_S16_S1x16 := by
  dsimp only [V]
  simp only [hostOps0, hostOps0_1, hostOps0_2, List.flatten_cons, List.flatten_nil, List.append_nil, List.cons_append, List.nil_append]
  after_results
  rfl

theorem spreads_term (c : Dev nD) : (V m c main_v5 : S1x16.Idx → EReal)
    = shapeCast S1x16 (argSpreads m c) shapeCasts_S16_S1x16 := by
  dsimp only [V]
  simp only [hostOps0, hostOps0_1, hostOps0_2, List.flatten_cons, List.flatten_nil, List.append_nil, List.cons_append, List.nil_append]
  after_results
  rfl

theorem weights_term (c : Dev nD) : (V m c main_v3 : S16x128.Idx → EReal)
    = truncf (F := Ideal) .bf16 (argW m c) bitsLt_bf16_f32 := by
  dsimp only [V]
  simp only [hostOps0, hostOps0_1, hostOps0_2, List.flatten_cons, List.flatten_nil, List.append_nil, List.cons_append, List.nil_append]
  after_results

theorem bias_term (c : Dev nD) : (V m c main_v7 : S1x128.Idx → EReal)
    = shapeCast S1x128 (Host.reduceAdd (F := Ideal) (argLb m c) (constant (F := Ideal) S_ .f32 0x00000000#32) reducesTo_S16x128_S128_d0 h_S_) shapeCasts_S128_S1x128 := by
  dsimp only [V]
  simp only [hostOps0, hostOps0_1, hostOps0_2, List.flatten_cons, List.flatten_nil, List.append_nil, List.cons_append, List.nil_append]
  after_results
  rfl

/-- The column sums of a 16 × 128 array from a zero start, as a one-row array, read at column d. -/
theorem colsum_read (x : FVec Ideal S16x128 .f32) (d : Fin 128) :
    shapeCast S1x128 (Host.reduceAdd (F := Ideal) x (constant (F := Ideal) S_ .f32 0x00000000#32) reducesTo_S16x128_S128_d0 h_S_)
      shapeCasts_S128_S1x128 (ix2 (0 : Fin 1) d) = ∑ k : Fin 16, x (ix2 k d) := by
  rw [shapeCast_a_1a_apply]
  simp only [Host.reduceAdd, Ideal.hostReduceAdd_def]
  rw [Ideal.hostReduceAdd_single reducesTo_S16x128_S128_d0 (by decide), constant_apply, Ideal.ofBits_zero_f32, zero_add]
  refine Finset.sum_congr rfl fun k _ => ?_
  exact congrArg x (funext fun a => Fin.ext (by match a with | ⟨0, _⟩ => rfl | ⟨1, _⟩ => rfl))

theorem table_term (c : Dev nD) : (V m c main_v2 : S8x256x128.Idx → EReal)
    = truncf (F := Ideal) .bf16 (shapeCast S8x256x128 (pad S16x128x128 ![0, 0, 0] ![0, 63, 0] ![0, 0, 0] (argTab m c)
        (sitofp (F := Ideal) .f32 (constantI S_ 32 0#32)) pads_S16x65x128_S16x128x128_000_0630_000 h_S_)
        shapeCasts_S16x128x128_S8x256x128) bitsLt_bf16_f32 := by
  dsimp only [V]
  simp only [hostOps0, hostOps0_1, hostOps0_2, List.flatten_cons, List.flatten_nil, List.append_nil, List.cons_append, List.nil_append]
  after_results
  rfl

/-- The padding value: the integer zero as a float is the extended real zero. -/
theorem padval_zero (i : S_.Idx) : (sitofp (F := Ideal) .f32 (constantI S_ 32 0#32) : FVec Ideal S_ .f32) i = 0 := by
  show (((0#32 : BitVec 32).toInt : ℝ) : EReal) = 0
  simp

/-- Sixteen tables of 65 rows, each padded with 63 more rows of the padding value, read at table t, row v. -/
theorem padded_read (x : FVec Ideal S16x65x128 .f32) (t : Fin 16) (v : Fin 128) (d : Fin 128) :
    pad S16x128x128 ![0, 0, 0] ![0, 63, 0] ![0, 0, 0] x (sitofp (F := Ideal) .f32 (constantI S_ 32 0#32))
        pads_S16x65x128_S16x128x128_000_0630_000 h_S_ (ix3 t v d)
      = if hv : v.val < 65 then x (ix3 t (⟨v.val, hv⟩ : Fin 65) d) else (0 : EReal) := by
  by_cases hv : v.val < 65
  · rw [dif_pos hv]
    refine pad_apply_of_inside _ _ _ x _ _ _ _ _ fun a => ?_
    match a with
    | ⟨0, _⟩ => show t.val = 0 + t.val * (0 + 1); omega
    | ⟨1, _⟩ => show v.val = 0 + v.val * (0 + 1); omega
    | ⟨2, _⟩ => show d.val = 0 + d.val * (0 + 1); omega
  · rw [dif_neg hv]
    refine (pad_apply_of_not_inside _ _ _ x _ _ _ _ (1 : Fin 3) ?_).trans (padval_zero _)
    show ¬(0 ≤ v.val ∧ (v.val - 0) % (0 + 1) = 0 ∧ (v.val - 0) / (0 + 1) < 65)
    rw [Nat.sub_zero, Nat.zero_add, Nat.div_one]
    exact fun h => hv h.2.2

/-- The 16 × 128 × 128 array regrouped as 8 × 256 × 128: slab p, row 128·h + v is table 2p + h, row v. -/
theorem regroup_read {α : Type} (y : S16x128x128.Idx → α) (p : Fin 8) (h : Fin 2) (v : Fin 128) (d : Fin 128) :
    shapeCast S8x256x128 y shapeCasts_S16x128x128_S8x256x128 (ix3 p (⟨128 * h.val + v.val, by omega⟩ : Fin 256) d)
      = y (ix3 (⟨2 * p.val + h.val, by omega⟩ : Fin 16) v d) := by
  refine shapeCast_apply y _ _ _ ?_
  rw [Shape.rowMajor_val_three, Shape.rowMajor_val_three]
  show ((2 * p.val + h.val) * 128 + v.val) * 128 + d.val = (p.val * 256 + (128 * h.val + v.val)) * 128 + d.val
  omega

/-! The five arrays read at an index. -/

theorem means_at (c : Dev nD) (k : Fin 16) : hostMeans m c (ix2 (0 : Fin 1) k) = argMeans m c (ix1 k) := by
  show (V m c main_v4 : S1x16.Idx → EReal) (ix2 (0 : Fin 1) k) = _
  rw [means_term]
  exact shapeCast_a_1a_apply _ _ _ _

theorem spreads_at (c : Dev nD) (k : Fin 16) : hostSpreads m c (ix2 (0 : Fin 1) k) = argSpreads m c (ix1 k) := by
  show (V m c main_v5 : S1x16.Idx → EReal) (ix2 (0 : Fin 1) k) = _
  rw [spreads_term]
  exact shapeCast_a_1a_apply _ _ _ _

theorem weights_at (c : Dev nD) (k : Fin 16) (d : Fin 128) : hostW m c (ix2 k d) = argW m c (ix2 k d) := by
  show (V m c main_v3 : S16x128.Idx → EReal) (ix2 k d) = _
  rw [weights_term]
  rfl

theorem bias_at (c : Dev nD) (d : Fin 128) : hostBias m c (ix2 (0 : Fin 1) d) = ∑ k : Fin 16, argLb m c (ix2 k d) := by
  show (V m c main_v7 : S1x128.Idx → EReal) (ix2 (0 : Fin 1) d) = _
  rw [bias_term]
  exact colsum_read _ d

theorem table_at (c : Dev nD) (p : Fin 8) (h : Fin 2) (v : Fin 128) (d : Fin 128) :
    hostTab m c (ix3 p (⟨128 * h.val + v.val, by omega⟩ : Fin 256) d)
      = if hv : v.val < 65 then argTab m c (ix3 (⟨2 * p.val + h.val, by omega⟩ : Fin 16) (⟨v.val, hv⟩ : Fin 65) d)
        else (0 : EReal) := by
  show (V m c main_v2 : S8x256x128.Idx → EReal) (ix3 p (⟨128 * h.val + v.val, by omega⟩ : Fin 256) d) = _
  rw [table_term, truncf_apply, regroup_read]
  exact padded_read _ _ v d

end Cert.EmbedSum.Kern

end
-- ==== Proof.KernelValue.lean ====
/-
  From the blocks to the whole array. Grid point t works on rows 4096·t … 4096·t + 4095 of the batch: its attribute
  block and its category block are those rows of the two batch arrays, its output block those rows of the result; the
  five small operands (means, spreads, weights, bias, paired table) are staged whole at every point. With every
  category word a row number, the block the body leaves is the common value G on those rows; the sixteen blocks tile
  the result, so the array after the run is G.
-/
import proofs.«416551_j29695403885264_2_alg».proof.Proof.Gen.KernelIdeal.Value
import proofs.«416551_j29695403885264_2_alg».proof.Proof.BlockAt
import proofs.«416551_j29695403885264_2_alg».proof.Proof.HostArrays

set_option maxRecDepth 16384

noncomputable section

open scoped BigOperators

namespace Cert.EmbedSum.Kern

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## The seven input blocks at a point, each at its literal type -/
abbrev xblk (c : Dev nD) (t : Fin cfg0.N) : Vec Ideal S4096x16 .f32 := iblk m c 0 t
abbrev catblk (c : Dev nD) (t : Fin cfg0.N) : Vec Ideal S4096x16 .i32 := iblk m c 1 t
abbrev meansblk (c : Dev nD) (t : Fin cfg0.N) : Vec Ideal S1x16 .f32 := iblk m c 2 t
abbrev spreadsblk (c : Dev nD) (t : Fin cfg0.N) : Vec Ideal S1x16 .f32 := iblk m c 3 t
abbrev wblk (c : Dev nD) (t : Fin cfg0.N) : Vec Ideal S16x128 .bf16 := iblk m c 4 t
abbrev biasblk (c : Dev nD) (t : Fin cfg0.N) : Vec Ideal S1x128 .f32 := iblk m c 5 t
abbrev tabblk (c : Dev nD) (t : Fin cfg0.N) : Vec Ideal S8x256x128 .bf16 := iblk m c 6 t

/-- The printed index maps, decided over the sixteen points: the three batch windows move with the point along the
    rows, the five small operands stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_7.index t (0 : Fin 2) = t.val ∧ win0_7.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = 0 ∧ win0_6.index t (1 : Fin 3) = 0 ∧ win0_6.index t (2 : Fin 3) = 0 :=
  (by decide +kernel : ∀ t : Fin grid0.N, _)

/-- Row r of point t's blocks is row 4096·t + r of the batch. -/
def batchRow (t : Fin cfg0.N) (r : Fin 4096) : Fin 65536 :=
  ⟨4096 * t.val + r.val, by have h := t.isLt; have e : cfg0.N = 16 := N_0; omega⟩

theorem xblk_at (c : Dev nD) (t : Fin cfg0.N) (r : Fin 4096) (k : Fin 16) :
    xblk m c t (ix2 r k) = argX m c (ix2 (batchRow t r) k) := by
  show V m c main_arg0 (((cfg0.win 0).blk t).view.emb (ix2 r k)) = _
  rw [V_main_arg0 m c]
  obtain ⟨e0, e1, -⟩ := idx_facts t
  show m _ _ = m _ _
  congr 1
  funext a
  apply Fin.ext
  match a with
  | ⟨0, _⟩ => show win0_0.index t (0 : Fin 2) * 4096 + 1 * r.val = 4096 * t.val + r.val; rw [e0]; omega
  | ⟨1, _⟩ => show win0_0.index t (1 : Fin 2) * 16 + 1 * k.val = k.val; rw [e1]; omega

theorem catblk_at (c : Dev nD) (t : Fin cfg0.N) (r : Fin 4096) (k : Fin 16) :
    catblk m c t (ix2 r k) = argCat m c (ix2 (batchRow t r) k) := by
  show V m c main_arg6 (((cfg0.win 1).blk t).view.emb (ix2 r k)) = _
  rw [V_main_arg6 m c]
  obtain ⟨-, -, e0, e1, -⟩ := idx_facts t
  show m _ _ = m _ _
  congr 1
  funext a
  apply Fin.ext
  match a with
  | ⟨0, _⟩ => show win0_1.index t (0 : Fin 2) * 4096 + 1 * r.val = 4096 * t.val + r.val; rw [e0]; omega
  | ⟨1, _⟩ => show win0_1.index t (1 : Fin 2) * 16 + 1 * k.val = k.val; rw [e1]; omega

theorem meansblk_at (c : Dev nD) (t : Fin cfg0.N) (k : Fin 16) :
    meansblk m c t (ix2 (0 : Fin 1) k) = hostMeans m c (ix2 (0 : Fin 1) k) := by
  show V m c main_v4 (((cfg0.win 2).blk t).view.emb (ix2 (0 : Fin 1) k)) = V m c main_v4 _
  obtain ⟨-, -, -, -, -, -, e0, e1, -⟩ := idx_facts t
  congr 1
  funext a
  apply Fin.ext
  match a with
  | ⟨0, _⟩ => show win0_2.index t (0 : Fin 2) * 1 + 1 * 0 = 0; rw [e0]
  | ⟨1, _⟩ => show win0_2.index t (1 : Fin 2) * 16 + 1 * k.val = k.val; rw [e1]; omega

theorem spreadsblk_at (c : Dev nD) (t : Fin cfg0.N) (k : Fin 16) :
    spreadsblk m c t (ix2 (0 : Fin 1) k) = hostSpreads m c (ix2 (0 : Fin 1) k) := by
  show V m c main_v5 (((cfg0.win 3).blk t).view.emb (ix2 (0 : Fin 1) k)) = V m c main_v5 _
  obtain ⟨-, -, -, -, -, -, -, -, e0, e1, -⟩ := idx_facts t
  congr 1
  funext a
  apply Fin.ext
  match a with
  | ⟨0, _⟩ => show win0_3.index t (0 : Fin 2) * 1 + 1 * 0 = 0; rw [e0]
  | ⟨1, _⟩ => show win0_3.index t (1 : Fin 2) * 16 + 1 * k.val = k.val; rw [e1]; omega

theorem wblk_at (c : Dev nD) (t : Fin cfg0.N) (k : Fin 16) (d : Fin 128) :
    wblk m c t (ix2 k d) = hostW m c (ix2 k d) := by
  show V m c main_v3 (((cfg0.win 4).blk t).view.emb (ix2 k d)) = V m c main_v3 _
  obtain ⟨-, -, -, -, -, -, -, -, -, -, e0, e1, -⟩ := idx_facts t
  congr 1
  funext a
  apply Fin.ext
  match a with
  | ⟨0, _⟩ => show win0_4.index t (0 : Fin 2) * 16 + 1 * k.val = k.val; rw [e0]; omega
  | ⟨1, _⟩ => show win0_4.index t (1 : Fin 2) * 128 + 1 * d.val = d.val; rw [e1]; omega

theorem biasblk_at (c : Dev nD) (t : Fin cfg0.N) (d : Fin 128) :
    biasblk m c t (ix2 (0 : Fin 1) d) = hostBias m c (ix2 (0 : Fin 1) d) := by
  show V m c main_v7 (((cfg0.win 5).blk t).view.emb (ix2 (0 : Fin 1) d)) = V m c main_v7 _
  obtain ⟨-, -, -, -, -, -, -, -, -, -, -, -, e0, e1, -⟩ := idx_facts t
  congr 1
  funext a
  apply Fin.ext
  match a with
  | ⟨0, _⟩ => show win0_5.index t (0 : Fin 2) * 1 + 1 * 0 = 0; rw [e0]
  | ⟨1, _⟩ => show win0_5.index t (1 : Fin 2) * 128 + 1 * d.val = d.val; rw [e1]; omega

theorem tabblk_at (c : Dev nD) (t : Fin cfg0.N) (p : Fin 8) (j : Fin 256) (d : Fin 128) :
    tabblk m c t (ix3 p j d) = hostTab m c (ix3 p j d) := by
  show V m c main_v2 (((cfg0.win 6).blk t).view.emb (ix3 p j d)) = V m c main_v2 _
  obtain ⟨-, -, -, -, -, -, -, -, -, -, -, -, -, -, e0, e1, e2⟩ := idx_facts t
  congr 1
  funext a
  apply Fin.ext
  match a with
  | ⟨0, _⟩ => show win0_6.index t (0 : Fin 3) * 8 + 1 * p.val = p.val; rw [e0]; omega
  | ⟨1, _⟩ => show win0_6.index t (1 : Fin 3) * 256 + 1 * j.val = j.val; rw [e1]; omega
  | ⟨2, _⟩ => show win0_6.index t (2 : Fin 3) * 128 + 1 * d.val = d.val; rw [e2]; omega

/-! ## The block is the common value on its rows -/

/-- Sixteen terms after a first one, paired as the body adds them. -/
theorem sum16 (f : Fin 16 → EReal) (a : EReal) :
    a + ∑ c : Fin 16, f c
      = a + (f 0 + f 1) + (f 2 + f 3) + (f 4 + f 5) + (f 6 + f 7) + (f 8 + f 9) + (f 10 + f 11) + (f 12 + f 13) + (f 14 + f 15) := by
  rw [Fin.sum_univ_succ, Fin.sum_univ_succ, Fin.sum_univ_succ, Fin.sum_univ_succ, Fin.sum_univ_succ, Fin.sum_univ_succ,
    Fin.sum_univ_succ, Fin.sum_univ_succ, Fin.sum_univ_succ, Fin.sum_univ_succ, Fin.sum_univ_succ, Fin.sum_univ_succ,
    Fin.sum_univ_succ, Fin.sum_univ_succ, Fin.sum_univ_succ, Fin.sum_univ_succ, Fin.sum_univ_zero, add_zero]
  show a + (f 0 + (f 1 + (f 2 + (f 3 + (f 4 + (f 5 + (f 6 + (f 7 + (f 8 + (f 9 + (f 10 + (f 11 + (f 12 + (f 13 + (f 14 + f 15))))))))))))))) = _
  simp only [add_assoc]

/-- The two slab rows a pair of category words picks are the two table rows the words name: slab P stacks tables 2P and
    2P + 1, each padded to 128 rows, and a row number is below 65. -/
theorem pick_tab (c : Dev nD) (t : Fin cfg0.N) (P : Nat) (hP : P < 8)
    (inb : ∀ a, (![P, 0, 0] : Fin 3 → Nat) a + S1x256x128.size a ≤ S8x256x128.size a) (a b : BitVec 32) (d : Fin 128)
    (c0 c1 : Fin 16) (h0 : c0.val = 2 * P) (h1 : c1.val = 2 * P + 1)
    (ha0 : 0 ≤ a.toInt) (ha1 : a.toInt < 65) (hb0 : 0 ≤ b.toInt) (hb1 : b.toInt < 65) :
    pick (slabOf (tabblk m c t) ![P, 0, 0] inb) a b d
      = argTab m c (ix3 c0 (row a) d) + argTab m c (ix3 c1 (row b) d) := by
  obtain ⟨ea, la⟩ := row_val_of_range a ha0 ha1
  obtain ⟨eb, lb⟩ := row_val_of_range b hb0 hb1
  unfold pick
  rw [slabOf_at _ P hP, slabOf_at _ P hP, tabblk_at, tabblk_at]
  have t1 : hostTab m c (ix3 (⟨P, hP⟩ : Fin 8) (⟨a.toNat % 128, by omega⟩ : Fin 256) d)
      = argTab m c (ix3 c0 (row a) d) := by
    have h1 := table_at m c ⟨P, hP⟩ (0 : Fin 2) (⟨a.toNat, by omega⟩ : Fin 128) d
    rw [dif_pos la] at h1
    refine (congrArg (hostTab m c) ?_).trans (h1.trans (congrArg (argTab m c) ?_))
    · funext x; apply Fin.ext
      match x with
      | ⟨0, _⟩ => rfl
      | ⟨1, _⟩ => show a.toNat % 128 = 128 * 0 + a.toNat; omega
      | ⟨2, _⟩ => rfl
    · funext x; apply Fin.ext
      match x with
      | ⟨0, _⟩ => show 2 * P + 0 = c0.val; omega
      | ⟨1, _⟩ => show a.toNat = (row a).val; omega
      | ⟨2, _⟩ => rfl
  have t2 : hostTab m c (ix3 (⟨P, hP⟩ : Fin 8) (⟨128 + b.toNat % 128, by omega⟩ : Fin 256) d)
      = argTab m c (ix3 c1 (row b) d) := by
    have h1' := table_at m c ⟨P, hP⟩ (1 : Fin 2) (⟨b.toNat, by omega⟩ : Fin 128) d
    rw [dif_pos lb] at h1'
    refine (congrArg (hostTab m c) ?_).trans (h1'.trans (congrArg (argTab m c) ?_))
    · funext x; apply Fin.ext
      match x with
      | ⟨0, _⟩ => rfl
      | ⟨1, _⟩ => show 128 + b.toNat % 128 = 128 * 1 + b.toNat; omega
      | ⟨2, _⟩ => rfl
    · funext x; apply Fin.ext
      match x with
      | ⟨0, _⟩ => show 2 * P + 1 = c1.val; omega
      | ⟨1, _⟩ => show b.toNat = (row b).val; omega
      | ⟨2, _⟩ => rfl
  rw [t1, t2]

/-- Row r, column d of the block point t leaves is the common value at row 4096·t + r, column d. -/
theorem block_eq_G (c : Dev nD) (t : Fin cfg0.N) (hr : InRange (argCat m c)) (r : Fin 4096) (d : Fin 128) :
    blockVal (F := Ideal) (xblk m c t) (catblk m c t) (meansblk m c t) (spreadsblk m c t) (wblk m c t) (biasblk m c t) (tabblk m c t) (ix2 r d)
      = G (argX m c) (argMeans m c) (argSpreads m c) (argW m c) (argLb m c) (argTab m c) (argCat m c) (ix2 (batchRow t r) d) := by
  have hc : ∀ k : Fin 16, 0 ≤ (catblk m c t (ix2 r k)).toInt ∧ (catblk m c t (ix2 r k)).toInt < 65 := fun k => by
    rw [catblk_at]; exact hr _ k
  have hrow : ∀ k : Fin 16, (catblk m c t (ix2 r k)).toNat < 128 := fun k => by
    have := (row_val_of_range _ (hc k).1 (hc k).2).2; omega
  rw [blockVal_at _ _ _ _ _ _ _ r d hrow]
  rw [pick_tab m c t 0 (by decide) _ _ _ d 0 1 rfl rfl (hc 0).1 (hc 0).2 (hc 1).1 (hc 1).2,
    pick_tab m c t 1 (by decide) _ _ _ d 2 3 rfl rfl (hc 2).1 (hc 2).2 (hc 3).1 (hc 3).2,
    pick_tab m c t 2 (by decide) _ _ _ d 4 5 rfl rfl (hc 4).1 (hc 4).2 (hc 5).1 (hc 5).2,
    pick_tab m c t 3 (by decide) _ _ _ d 6 7 rfl rfl (hc 6).1 (hc 6).2 (hc 7).1 (hc 7).2,
    pick_tab m c t 4 (by decide) _ _ _ d 8 9 rfl rfl (hc 8).1 (hc 8).2 (hc 9).1 (hc 9).2,
    pick_tab m c t 5 (by decide) _ _ _ d 10 11 rfl rfl (hc 10).1 (hc 10).2 (hc 11).1 (hc 11).2,
    pick_tab m c t 6 (by decide) _ _ _ d 12 13 rfl rfl (hc 12).1 (hc 12).2 (hc 13).1 (hc 13).2,
    pick_tab m c t 7 (by decide) _ _ _ d 14 15 rfl rfl (hc 14).1 (hc 14).2 (hc 15).1 (hc 15).2]
  unfold G
  show _ = ((∑ k : Fin 16, gate (argX m c (ix2 (batchRow t r) k)) (argMeans m c (ix1 k)) (argSpreads m c (ix1 k)) * argW m c (ix2 k d))
      + ∑ k : Fin 16, argLb m c (ix2 k d))
    + ∑ cc : Fin 16, argTab m c (ix3 cc (row (argCat m c (ix2 (batchRow t r) cc))) d)
  rw [sum16]
  simp only [xblk_at, meansblk_at, spreadsblk_at, wblk_at, biasblk_at, catblk_at]
  have eA : (∑ k : Fin 16, gate (argX m c (ix2 (batchRow t r) k)) (hostMeans m c (ix2 (0 : Fin 1) k)) (hostSpreads m c (ix2 (0 : Fin 1) k)) * hostW m c (ix2 k d))
      = ∑ k : Fin 16, gate (argX m c (ix2 (batchRow t r) k)) (argMeans m c (ix1 k)) (argSpreads m c (ix1 k)) * argW m c (ix2 k d) :=
    Finset.sum_congr rfl fun k _ => by rw [means_at, spreads_at, weights_at]
  rw [eA, bias_at]

/-! ## From the blocks to the array -/

/-- What point t writes back is block t of the common value. -/
theorem flushed_eq (c : Dev nD) (t : Fin cfg0.N) (hr : InRange (argCat m c)) :
    (dats m 0 c).flushed 7 t = ((cfg0.win 7).blk t).view.read (Elt Ideal) (G (argX m c) (argMeans m c) (argSpreads m c) (argW m c) (argLb m c) (argTab m c) (argCat m c)) := by
  rw [Cert.KernelIdeal.Value.flushed7_A, out_eq_blockVal]
  obtain ⟨-, -, -, -, e0, e1, -⟩ := idx_facts t
  funext j
  show blockVal (F := Ideal) (xblk m c t) (catblk m c t) (meansblk m c t) (spreadsblk m c t) (wblk m c t) (biasblk m c t) (tabblk m c t) j = G (argX m c) (argMeans m c) (argSpreads m c) (argW m c) (argLb m c) (argTab m c) (argCat m c) (((cfg0.win 7).blk t).view.emb j)
  refine (congrArg _ (eq_ix2 j)).trans ((block_eq_G m c t hr (j 0) (j 1)).trans (congrArg _ ?_))
  funext a
  apply Fin.ext
  match a with
  | ⟨0, _⟩ => show 4096 * t.val + (j 0).val = win0_7.index t (0 : Fin 2) * 4096 + 1 * (j 0).val; rw [e0]; omega
  | ⟨1, _⟩ => show (j 1).val = win0_7.index t (1 : Fin 2) * 128 + 1 * (j 1).val; rw [e1]; omega

/-- An index of the result is in point t's block iff each coordinate is in the block's range on its axis. -/
theorem mem_blk7 (t : Fin cfg0.N) (i : S65536x128.Idx) :
    i ∈ ((cfg0.win 7).blk t).view.set ↔ ∀ a : Fin 2, win0_7.index t a * S4096x128.size a ≤ (i a).val ∧ (i a).val < win0_7.index t a * S4096x128.size a + S4096x128.size a := by
  show i ∈ ((View.whole main_v8).slice (win0_7.rect t)).set ↔ _
  rw [View.set_slice_whole, Rect.mem_set_unit]
  exact Iff.rfl

/-- Every row of the result is in the block of the point its 4096-row group names. -/
theorem cover7 (i : S65536x128.Idx) : ∃ t : Fin cfg0.N, (cfg0.win 7).flush t = true ∧ i ∈ ((cfg0.win 7).blk t).view.set := by
  have hi0 : (i 0).val < 65536 := (i 0).isLt
  have hi1 : (i 1).val < 128 := (i 1).isLt
  have hN : cfg0.N = 16 := N_0
  refine ⟨⟨(i 0).val / 4096, by omega⟩, flush0_7 _, ?_⟩
  obtain ⟨-, -, -, -, e0, e1, -⟩ := idx_facts ⟨(i 0).val / 4096, by omega⟩
  rw [mem_blk7]
  intro a
  match a with
  | ⟨0, _⟩ =>
    show win0_7.index _ (0 : Fin 2) * 4096 ≤ (i 0).val ∧ (i 0).val < win0_7.index _ (0 : Fin 2) * 4096 + 4096
    rw [e0]; show (i 0).val / 4096 * 4096 ≤ (i 0).val ∧ (i 0).val < (i 0).val / 4096 * 4096 + 4096; omega
  | ⟨1, _⟩ =>
    show win0_7.index _ (1 : Fin 2) * 128 ≤ (i 1).val ∧ (i 1).val < win0_7.index _ (1 : Fin 2) * 128 + 128
    rw [e1]; omega

/-- THE ARRAY after the run is the common value of the argument arrays. -/
theorem kernel_eq_G (c : Dev nD) (hr : InRange (argCat m c)) :
    (dats m 0 c).arrAt 7 cfg0.N = G (argX m c) (argMeans m c) (argSpreads m c) (argW m c) (argLb m c) (argTab m c) (argCat m c) :=
  (dats m 0 c).arrAt_eq_of_cover 7 (G (argX m c) (argMeans m c) (argSpreads m c) (argW m c) (argLb m c) (argTab m c) (argCat m c)) (fun t _ => flushed_eq m c t hr) cover7

end Cert.EmbedSum.Kern

end
-- ==== Proof.RefValue.lean ====
/-
  The reference program's result is the common value `G` (Spec.lean) when every category word is a row number.

  The program is read one operation at a time at an index (b, d). Its three branches are
    * the numeric one: a pointwise chain 1 / (1 + exp(−((x − μ) / (s + ε)))), which is `gate`, contracted with W over the
      16 attributes;
    * the bias: the column sum of lb, broadcast over the batch;
    * the categorical one: a gather of table rows at index pairs (table number, category word), summed over the 16
      tables. The table number c satisfies 0 ≤ c < 16 and the category word is not negative, so neither normalising
      select fires; the gather reads each component signed and clamps it, the first into the 16 tables (which leaves c
      alone), the second into the 65 rows, which is `row`.
-/
import proofs.«416551_j29695403885264_2_alg».proof.Proof.Gen.ReferenceIdeal.Read
import proofs.«416551_j29695403885264_2_alg».proof.Proof.Spec
import Idealize.ShloMosaic.Lib.StableHlo.Predicate

noncomputable section

open scoped BigOperators

namespace Cert.EmbedSum.Ref

open Cert.ReferenceIdeal Cert.ReferenceIdeal.Gen Cert.ReferenceIdeal.Read Idealize.ShloMosaic Idealize.ShloMosaic.ValueIdx

/-! ## The numeric branch and the bias -/

/-- The bit pattern of single-precision one is the extended real one. -/
theorem one_f32 : Ideal.ofBits .f32 0x3F800000#32 = 1 := IdealRules.sign_bit.ideal_onePat .f32

/-- The numeric branch before the contraction, at (b, k): the squashed standardised attribute. -/
theorem v13_at (x0 : (⟨S65536x16, .f32⟩ : BufTy).Contents (Elt Ideal)) (x1 x2 : (⟨S16, .f32⟩ : BufTy).Contents (Elt Ideal))
    (b : Fin 65536) (k : Fin 16) :
    val_main_v13 (F := Ideal) x0 x1 x2 (ix2 b k) = gate (x0 (ix2 b k)) (x1 (ix1 k)) (x2 (ix1 k)) := by
  have e1 : idx_main_v0 (idx_main_v1 (ix2 b k)) = ix1 k := funext fun a => by match a with | ⟨0, _⟩ => rfl
  have e2 : idx_main_v5 (idx_main_v6 (ix2 b k)) = ix1 k := funext fun a => by match a with | ⟨0, _⟩ => rfl
  rw [val_main_v13_apply, val_main_v12_apply, val_main_cst_1_apply, val_main_v11_apply, val_main_v10_apply,
    val_main_cst_0_apply, val_main_v9_apply, val_main_v8_apply, val_main_v7_apply, val_main_v2_apply, val_main_v1_apply,
    val_main_v0_apply, val_main_v6_apply, val_main_v5_apply, val_main_v4_apply, val_main_v3_apply, val_main_cst_apply,
    e1, e2]
  simp only [Ideal.hostDivf_def, Ideal.addf_def, Ideal.subf_def, Ideal.hostUnary_exp_def, Ideal.hostNegf_def,
    Ideal.negf_def, Ideal.ofBits_def, one_f32]
  rfl

/-- The bit pattern of single-precision zero is the extended real zero (as the float operations spell it). -/
theorem zero_f32 : FloatOps.ofBits (F := Ideal) .f32 0x00000000#32 = (0 : EReal) := Ideal.ofBits_zero_f32

/-- The numeric branch after the contraction, at (b, d). -/
theorem v14_at (x0 : (⟨S65536x16, .f32⟩ : BufTy).Contents (Elt Ideal)) (x1 x2 : (⟨S16, .f32⟩ : BufTy).Contents (Elt Ideal))
    (x3 : (⟨S16x128, .f32⟩ : BufTy).Contents (Elt Ideal)) (b : Fin 65536) (d : Fin 128) :
    val_main_v14 (F := Ideal) x0 x1 x2 x3 (ix2 b d)
      = ∑ k : Fin 16, gate (x0 (ix2 b k)) (x1 (ix1 k)) (x2 (ix1 k)) * x3 (ix2 k d) := by
  rw [val_main_v14_apply]
  refine Finset.sum_congr rfl fun k _ => ?_
  have el : lidx_main_v14 (ix2 b d) k = ix2 b k := funext fun a => by match a with | ⟨0, _⟩ => rfl | ⟨1, _⟩ => rfl
  have er : ridx_main_v14 (ix2 b d) k = ix2 k d := funext fun a => by match a with | ⟨0, _⟩ => rfl | ⟨1, _⟩ => rfl
  rw [el, er, v13_at]

/-- The bias branch at (b, d): the column sum of the bias array. -/
theorem v17_at (x4 : (⟨S16x128, .f32⟩ : BufTy).Contents (Elt Ideal)) (b : Fin 65536) (d : Fin 128) :
    val_main_v17 (F := Ideal) x4 (ix2 b d) = ∑ k : Fin 16, x4 (ix2 k d) := by
  rw [val_main_v17_apply, val_main_v16_apply, val_main_v15_apply, val_main_cst_2_apply, zero_f32, zero_add]
  refine Finset.sum_congr rfl fun k _ => ?_
  exact congrArg x4 (funext fun a => by match a with | ⟨0, _⟩ => rfl | ⟨1, _⟩ => rfl)

/-! ## The index array of the gather, component by component -/

/-- A signed "less than zero" of a word that is not negative is false. -/
theorem slt_zero_of_nonneg (w : BitVec 32) (h : 0 ≤ w.toInt) : IntOp.cmpi .slt w 0#32 = 0#1 := by
  have h0 : (0#32 : BitVec 32).toInt = 0 := by decide
  have hf : w.slt 0#32 = false := by
    simp only [BitVec.slt, h0, decide_eq_false_iff_not]; omega
  show BitVec.ofBool (w.slt 0#32) = 0#1
  rw [hf]; rfl

/-- A table number as a word reads back, signed, as itself. -/
theorem toInt_tableWord (c : Fin 16) : (BitVec.ofNat 32 c.val).toInt = (c.val : Int) :=
  StableHlo.Predicate.toInt_ofNat_small c.val (by have := c.isLt; omega)

/-- Component 0 of the index array at (b, c): the table number c, as a word. -/
theorem v33_at0 (x6 : (⟨S65536x16, .i32⟩ : BufTy).Contents (Elt Ideal)) (b : Fin 65536) (c : Fin 16) :
    val_main_v33 (F := Ideal) x6 (ix3 b c (0 : Fin 2)) = BitVec.ofNat 32 c.val := by
  unfold val_main_v33
  refine (concatenate_pair_apply_left (s₁ := S65536x16x1) (s₂ := S65536x16x1) _ _ _ _ (ix3 b c (0 : Fin 2)) rfl (ix3 b c (0 : Fin 1))
    (fun a => by match a with | ⟨0, _⟩ => rfl | ⟨1, _⟩ => rfl | ⟨2, _⟩ => rfl)).trans ?_
  have e : idx_main_v30 (idx_main_v31 (ix3 b c (0 : Fin 1))) = ix1 c := funext fun a => by match a with | ⟨0, _⟩ => rfl
  rw [val_main_v31_apply, val_main_v30_apply, val_main_v24_apply, val_main_v21_apply, val_main_v19_apply,
    val_main_v20_apply, val_main_c_apply, e]
  show Scalar.select (IntOp.cmpi .slt (BitVec.ofNat 32 c.val) 0#32) _ (BitVec.ofNat 32 c.val) = _
  rw [slt_zero_of_nonneg _ (by rw [toInt_tableWord]; omega), select_zero]

/-- Component 1 of the index array at (b, c): the category word itself, when it is not negative. -/
theorem v33_at1 (x6 : (⟨S65536x16, .i32⟩ : BufTy).Contents (Elt Ideal)) (hr : InRange x6) (b : Fin 65536) (c : Fin 16) :
    val_main_v33 (F := Ideal) x6 (ix3 b c (1 : Fin 2)) = x6 (ix2 b c) := by
  unfold val_main_v33
  refine (concatenate_pair_apply_right (s₁ := S65536x16x1) (s₂ := S65536x16x1) _ _ _ _ (ix3 b c (1 : Fin 2)) rfl rfl (ix3 b c (0 : Fin 1)) ?_ ?_).trans ?_
  · intro a ha
    match a, ha with
    | ⟨0, _⟩, _ => rfl
    | ⟨1, _⟩, _ => rfl
    | ⟨2, _⟩, ha => exact absurd rfl ha
  · rfl
  · have e : idx_main_v32 (ix3 b c (0 : Fin 1)) = ix2 b c := funext fun a => by match a with | ⟨0, _⟩ => rfl | ⟨1, _⟩ => rfl
    rw [val_main_v32_apply, val_main_v29_apply, val_main_v26_apply, val_main_v25_apply, val_main_c_4_apply, e,
      slt_zero_of_nonneg _ (hr b c).1, select_zero]

/-! ## The gather at an index, and the categorical branch -/

/-- The gather's dimension numbers: tables [16, 65, 128] read at start pairs [65536, 16, 2] into [65536, 16, 128]. -/
abbrev gd : GatherDims S16x65x128 S65536x16x2 S65536x16x128 := gather_S16x65x128_S65536x16x2_S65536x16x128_2_01_n_n_01_2_11128

/-- The start word the gather reads for table axis 0 at result index (b, c, d): component 0 of the index array at (b, c). -/
theorem gd_start0 (idx : IVec S65536x16x2 32) (b : Fin 65536) (c : Fin 16) (d : Fin 128) :
    gd.start (ix3 b c d) idx 0 = min (idx (ix3 b c (0 : Fin 2))).toInt.toNat 15 := by
  unfold GatherDims.start
  rw [dif_pos (show (0 : Fin 3) ∈ gd.startIndexMap by decide)]
  have hsi : gd.siIdx (ix3 b c d) ⟨List.idxOf (0 : Fin 3) gd.startIndexMap, List.idxOf_lt_length_iff.2 (by decide)⟩
      = ix3 b c (0 : Fin 2) := by
    funext a; refine Fin.ext ?_
    match a with
    | ⟨0, _⟩ => rfl
    | ⟨1, _⟩ => rfl
    | ⟨2, _⟩ => rfl
  rw [hsi]
  rfl

/-- The start word for table axis 1 (the row axis): component 1 of the index array at (b, c). -/
theorem gd_start1 (idx : IVec S65536x16x2 32) (b : Fin 65536) (c : Fin 16) (d : Fin 128) :
    gd.start (ix3 b c d) idx 1 = min (idx (ix3 b c (1 : Fin 2))).toInt.toNat 64 := by
  unfold GatherDims.start
  rw [dif_pos (show (1 : Fin 3) ∈ gd.startIndexMap by decide)]
  have hsi : gd.siIdx (ix3 b c d) ⟨List.idxOf (1 : Fin 3) gd.startIndexMap, List.idxOf_lt_length_iff.2 (by decide)⟩
      = ix3 b c (1 : Fin 2) := by
    funext a; refine Fin.ext ?_
    match a with
    | ⟨0, _⟩ => rfl
    | ⟨1, _⟩ => rfl
    | ⟨2, _⟩ => rfl
  rw [hsi]
  rfl

/-- The feature axis has no start word; its coordinate is the result's own. -/
theorem gd_start2 (idx : IVec S65536x16x2 32) (b : Fin 65536) (c : Fin 16) (d : Fin 128) :
    gd.start (ix3 b c d) idx 2 = 0 := by
  unfold GatherDims.start
  rw [dif_neg (show ¬ (2 : Fin 3) ∈ gd.startIndexMap by decide)]

/-- The feature axis is the one offset axis: its offset coordinate is the result's last coordinate. -/
theorem gd_off2 (b : Fin 65536) (c : Fin 16) (d : Fin 128) : gd.offCoord (ix3 b c d) 2 = d.val := by
  unfold GatherDims.offCoord
  rw [dif_pos (show (2 : Fin 3) ∈ gd.sKept by decide)]
  rfl

/-- The gathered array at (b, c, d): table c, the row the category word names, column d. -/
theorem v34_at (x5 : (⟨S16x65x128, .f32⟩ : BufTy).Contents (Elt Ideal)) (x6 : (⟨S65536x16, .i32⟩ : BufTy).Contents (Elt Ideal))
    (hr : InRange x6) (b : Fin 65536) (c : Fin 16) (d : Fin 128) :
    val_main_v34 (F := Ideal) x5 x6 (ix3 b c d) = x5 (ix3 c (row (x6 (ix2 b c))) d) := by
  unfold val_main_v34 Host.gather
  refine congrArg x5 (funext fun a => Fin.ext ?_)
  match a with
  | ⟨0, _⟩ =>
    show gd.start (ix3 b c d) (val_main_v33 (F := Ideal) x6) 0 + gd.batchCoord (ix3 b c d) 0 + gd.offCoord (ix3 b c d) 0 = c.val
    rw [GatherDims.batchCoord_eq_zero _ _ _ List.not_mem_nil,
      GatherDims.offCoord_eq_zero _ _ _ (fun h => ((GatherDims.mem_sKept _ _).mp h).1 (by decide)),
      gd_start0, v33_at0, toInt_tableWord, Int.toNat_natCast]
    have := c.isLt
    omega
  | ⟨1, _⟩ =>
    show gd.start (ix3 b c d) (val_main_v33 (F := Ideal) x6) 1 + gd.batchCoord (ix3 b c d) 1 + gd.offCoord (ix3 b c d) 1
      = (row (x6 (ix2 b c))).val
    rw [GatherDims.batchCoord_eq_zero _ _ _ List.not_mem_nil,
      GatherDims.offCoord_eq_zero _ _ _ (fun h => ((GatherDims.mem_sKept _ _).mp h).1 (by decide)),
      gd_start1, v33_at1 _ hr]
    rfl
  | ⟨2, _⟩ =>
    show gd.start (ix3 b c d) (val_main_v33 (F := Ideal) x6) 2 + gd.batchCoord (ix3 b c d) 2 + gd.offCoord (ix3 b c d) 2 = d.val
    rw [GatherDims.batchCoord_eq_zero _ _ _ List.not_mem_nil, gd_start2, gd_off2]
    omega

/-- The categorical branch at (b, d): the sum over the tables of the named rows. -/
theorem v35_at (x5 : (⟨S16x65x128, .f32⟩ : BufTy).Contents (Elt Ideal)) (x6 : (⟨S65536x16, .i32⟩ : BufTy).Contents (Elt Ideal))
    (hr : InRange x6) (b : Fin 65536) (d : Fin 128) :
    val_main_v35 (F := Ideal) x5 x6 (ix2 b d) = ∑ c : Fin 16, x5 (ix3 c (row (x6 (ix2 b c))) d) := by
  rw [val_main_v35_apply, val_main_cst_6_apply, zero_f32, zero_add]
  refine Finset.sum_congr rfl fun c _ => ?_
  have e : idx_main_v35 (ix2 b d) c = ix3 b c d :=
    funext fun a => by match a with | ⟨0, _⟩ => rfl | ⟨1, _⟩ => rfl | ⟨2, _⟩ => rfl
  rw [e, v34_at _ _ hr]

/-! ## The three branches together -/

theorem ref_eq_G (x0 : (⟨S65536x16, .f32⟩ : BufTy).Contents (Elt Ideal)) (x1 x2 : (⟨S16, .f32⟩ : BufTy).Contents (Elt Ideal))
    (x3 x4 : (⟨S16x128, .f32⟩ : BufTy).Contents (Elt Ideal)) (x5 : (⟨S16x65x128, .f32⟩ : BufTy).Contents (Elt Ideal))
    (x6 : (⟨S65536x16, .i32⟩ : BufTy).Contents (Elt Ideal)) (hr : InRange x6) :
    val_main_v36 (F := Ideal) x0 x1 x2 x3 x4 x5 x6 = G x0 x1 x2 x3 x4 x5 x6 := by
  funext i
  obtain ⟨b, d, rfl⟩ : ∃ (b : Fin 65536) (d : Fin 128), i = ix2 b d := ⟨i 0, i 1, eq_ix2 i⟩
  rw [val_main_v36_apply, val_main_v18_apply, v14_at, v17_at, v35_at _ _ hr]
  rfl

end Cert.EmbedSum.Ref

end
-- ==== Proof.PreRange.lean ====
/-
  The precondition's last conjunct says every category word is a row number: 0 ≤ w < 65 as a signed integer.
-/
import proofs.«416551_j29695403885264_2_alg».proof.Defs
import proofs.«416551_j29695403885264_2_alg».proof.Proof.Gen.Pre_finite_inputs
import proofs.«416551_j29695403885264_2_alg».proof.Proof.Spec
import Idealize.ShloMosaic.Lib.ReduceAll

noncomputable section

open scoped BigOperators

namespace Cert.EmbedSum.Pre

open Idealize.ShloMosaic Idealize.ShloMosaic.ValueIdx Idealize.SL.Sem

/-- The rank-0 shape has one index. -/
instance : Subsingleton Cert.Pre_finite_inputs.S_.Idx := ⟨fun a b => funext fun d => d.elim0⟩

theorem range_of_pre (m : (ℓ : Loc Cert.KernelIdeal.nD Cert.KernelIdeal.τ Cert.KernelIdeal.sig) → Buf (Elt Ideal) ℓ)
    (h : Cert.Pre_KernelIdeal m) (c : Dev Cert.KernelIdeal.nD) :
    InRange (m ((c.tc : Thread Cert.KernelIdeal.nD Cert.KernelIdeal.τ).loc Cert.KernelIdeal.main_arg6)) := by
  intro b k
  -- the predicate's one scalar is 1; it is the conjunction of the seven tests, the range test last
  have e := congrFun (h c) ValueIdx.ix0
  unfold Cert.Pre_finite_inputs.fn at e
  dsimp only at e
  unfold Cert.Pre_finite_inputs.fn_part1 at e
  dsimp only at e
  unfold Cert.Pre_finite_inputs.fn_part2 at e
  dsimp only at e
  -- the last conjunct: the conjunction over all (b, k) of the two comparisons is 1
  have e2 := (IntOp.andi_eq_one.1 e).2
  -- so both comparisons are 1 at (b, k)
  have e3 := Host.reduce_andi_all _ _ _ _ _ e2 (ix2 b k)
  obtain ⟨hge, hlt⟩ := IntOp.andi_eq_one.1 e3
  -- the broadcast constants read 0 and 65 at every index
  have hge' : (0#32 : BitVec 32).toInt ≤ _ := IntOp.cmpi_sge.1 hge
  have hlt' : _ < (65#32 : BitVec 32).toInt := IntOp.cmpi_slt.1 hlt
  have z : (0#32 : BitVec 32).toInt = 0 := by decide
  have s : (65#32 : BitVec 32).toInt = 65 := by decide
  rw [z] at hge'
  rw [s] at hlt'
  exact ⟨hge', hlt'⟩

end Cert.EmbedSum.Pre

end
-- ==== Proof.lean ====
/-
  The certificate's claim: the kernel sums, for each batch row, a squashed-and-weighted numeric branch and sixteen
  embedding rows; the reference does the same with a dot product and a gather.

  Both programs end holding ONE function of the argument arrays, `G` (Proof/Spec.lean): at row b, column d,
      Σ_k σ((x[b,k] − μ[k]) / (s[k] + ε)) · W[k,d]  +  Σ_k lb[k,d]  +  Σ_c tab[c, cat[b,c], d].
  The precondition asks, beyond finite float inputs, that every category word be a row number of its 65-row table
  (0 ≤ cat < 65): outside that range the reference's gather clamps while the kernel's padded one-hot product does not,
  and the two differ. Under it (Proof/PreRange.lean reads it off the printed predicate):
    * the reference's run is `G`: its dot product and sums read index by index, its gather reading row cat[b,c]
      (Proof/RefValue.lean);
    * the kernel's output array is `G`: each grid point leaves in its 4096-row block the numeric branch
      (Proof/NumericAt.lean) plus, for each pair of attributes, a 0/1 matrix times a 256-row slab of the paired,
      zero-padded table, which picks the two rows the pair's words name (Proof/PairStep.lean, Proof/HostArrays.lean);
      the nine stores of the block compose (Proof/BlockValue.lean, Proof/BlockAt.lean) and the sixteen blocks tile the
      result (Proof/KernelValue.lean).
  Only commutativity and associativity of + on the extended reals, 0 · x = 0 and 1 · x = x join the two sides, so the
  finiteness of the float inputs is never used. The ideal pass rewrote nothing, so `preserves` is trivial.
-/
import proofs.«416551_j29695403885264_2_alg».proof.Defs
import proofs.«416551_j29695403885264_2_alg».proof.Proof.Gen.Kernel
import proofs.«416551_j29695403885264_2_alg».proof.Proof.Gen.Kernel.Frame
import proofs.«416551_j29695403885264_2_alg».proof.Proof.Gen.KernelIdeal
import proofs.«416551_j29695403885264_2_alg».proof.Proof.Gen.KernelIdeal.Frame
import proofs.«416551_j29695403885264_2_alg».proof.Proof.Gen.KernelIdeal.Value
import proofs.«416551_j29695403885264_2_alg».proof.Proof.Gen.ReferenceIdeal
import proofs.«416551_j29695403885264_2_alg».proof.Proof.Gen.ReferenceIdeal.Run
import proofs.«416551_j29695403885264_2_alg».proof.Proof.Gen.ReferenceIdeal.Read
import proofs.«416551_j29695403885264_2_alg».proof.Proof.Gen.Pre_finite_inputs
import proofs.«416551_j29695403885264_2_alg».proof.Proof.KernelValue
import proofs.«416551_j29695403885264_2_alg».proof.Proof.RefValue
import proofs.«416551_j29695403885264_2_alg».proof.Proof.PreRange
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at `G` of the (agreeing) argument arrays. -/
theorem algebraic : Cert.algebraic_KernelIdeal_ReferenceIdeal := by
  intro m ρ m' ρ' hpre hagree
  refine ⟨fun c => Cert.EmbedSum.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.EmbedSum.Kern.kernel_eq_G m c (Cert.EmbedSum.Pre.range_of_pre m hpre c)), (h c).2⟩)
      (Cert.KernelIdeal.Value.run_blocks (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v36_eq, (hagree c).1, (hagree c).2.1, (hagree c).2.2.1, (hagree c).2.2.2.1,
      (hagree c).2.2.2.2.1, (hagree c).2.2.2.2.2.1, (hagree c).2.2.2.2.2.2]
    exact Cert.EmbedSum.Ref.ref_eq_G _ _ _ _ _ _ _ (Cert.EmbedSum.Pre.range_of_pre m hpre c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
